-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v48) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x768 : Shape := ⟨2, ![65536, 768]⟩
abbrev S65536x64 : Shape := ⟨2, ![65536, 64]⟩
abbrev S256x768 : Shape := ⟨2, ![256, 768]⟩
abbrev S256 : Shape := ⟨1, ![256]⟩
abbrev S256x256 : Shape := ⟨2, ![256, 256]⟩
abbrev S256x512 : Shape := ⟨2, ![256, 512]⟩
abbrev S1537x256 : Shape := ⟨2, ![1537, 256]⟩
abbrev S1537 : Shape := ⟨1, ![1537]⟩
abbrev S768 : Shape := ⟨1, ![768]⟩
abbrev S1 : Shape := ⟨1, ![1]⟩
abbrev S_ : Shape := ⟨0, ![]⟩

class Facts : Prop where
  bcast_S_S65536x768 : S_.BroadcastsInDim S65536x768 (![] : Fin 0 → Fin S65536x768.rank)
  reducesTo_S65536x768_S_d0_1 : S65536x768.ReducesTo [0, 1] S_
  h_S_ : 0 < S_.numel
  bcast_S_S65536x64 : S_.BroadcastsInDim S65536x64 (![] : Fin 0 → Fin S65536x64.rank)
  reducesTo_S65536x64_S_d0_1 : S65536x64.ReducesTo [0, 1] S_
  bcast_S_S256x768 : S_.BroadcastsInDim S256x768 (![] : Fin 0 → Fin S256x768.rank)
  reducesTo_S256x768_S_d0_1 : S256x768.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x512 : S_.BroadcastsInDim S256x512 (![] : Fin 0 → Fin S256x512.rank)
  reducesTo_S256x512_S_d0_1 : S256x512.ReducesTo [0, 1] S_
  bcast_S_S1537x256 : S_.BroadcastsInDim S1537x256 (![] : Fin 0 → Fin S1537x256.rank)
  reducesTo_S1537x256_S_d0_1 : S1537x256.ReducesTo [0, 1] S_
  bcast_S_S1537 : S_.BroadcastsInDim S1537 (![] : Fin 0 → Fin S1537.rank)
  reducesTo_S1537_S_d0 : S1537.ReducesTo [0] S_
  bcast_S_S768 : S_.BroadcastsInDim S768 (![] : Fin 0 → Fin S768.rank)
  reducesTo_S768_S_d0 : S768.ReducesTo [0] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S768 .f32) (main_v50 : FVec F S768 .f32) : IVec S_ 1 :=
  let main_v51 : IVec S768 1 := cmpf .olt main_v49 main_v50
  let main_c_19 : IVec S_ 1 := constantI S_ 1 1#1
  let main_v52 : IVec S_ 1 := (fun x v => Host.reduce IntOp.andi x v reducesTo_S768_S_d0 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S256 .f32) (main_arg8 : FVec F S1537x256 .f32) (main_arg9 : FVec F S1537 .f32) (main_arg10 : FVec F S768 .f32) (main_arg11 : FVec F S1 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S1537x256 .f32 := Host.absf main_arg8
  let main_cst_14 : FVec F S_ .f32 := constant S_ .f32 0x7F800000#32
  let main_v40 : FVec F S1537x256 .f32 := broadcastInDim S1537x256 ![] bcast_S_S1537x256 main_cst_14
  let main_v41 : IVec S1537x256 1 := cmpf .olt main_v39 main_v40
  let main_c_15 : IVec S_ 1 := constantI S_ 1 1#1
  let main_v42 : IVec S_ 1 := (fun x v => Host.reduce IntOp.andi x v reducesTo_S1537x256_S_d0_1 h_S_) main_v41 main_c_15
  let main_v43 : IVec S_ 1 := andi main_v38 main_v42
  let main_v44 : FVec F S1537 .f32 := Host.absf main_arg9
  let main_cst_16 : FVec F S_ .f32 := constant S_ .f32 0x7F800000#32
  let main_v45 : FVec F S1537 .f32 := broadcastInDim S1537 ![] bcast_S_S1537 main_cst_16
  let main_v46 : IVec S1537 1 := cmpf .olt main_v44 main_v45
  let main_c_17 : IVec S_ 1 := constantI S_ 1 1#1
  let main_v47 : IVec S_ 1 := (fun x v => Host.reduce IntOp.andi x v reducesTo_S1537_S_d0 h_S_) main_v46 main_c_17
  let main_v48 : IVec S_ 1 := andi main_v43 main_v47
  let main_v49 : FVec F S768 .f32 := Host.absf main_arg10
  let main_cst_18 : FVec F S_ .f32 := constant S_ .f32 0x7F800000#32
  let main_v50 : FVec F S768 .f32 := broadcastInDim S768 ![] bcast_S_S768 main_cst_18
  fn_part3 (F := F) main_arg11 main_v48 main_v49 main_v50

def fn_part1 {F : FTy → Type} [FloatOps F] (main_arg4 : FVec F S256x256 .f32) (main_arg5 : FVec F S256 .f32) (main_arg6 : FVec F S256x512 .f32) (main_arg7 : FVec F S256 .f32) (main_arg8 : FVec F S1537x256 .f32) (main_arg9 : FVec F S1537 .f32) (main_arg10 : FVec F S768 .f32) (main_arg11 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x512 .f32 := Host.absf main_arg6
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S65536x768 .f32) (main_arg1 : FVec F S65536x64 .f32) (main_arg2 : FVec F S256x768 .f32) (main_arg3 : FVec F S256 .f32) (main_arg4 : FVec F S256x256 .f32) (main_arg5 : FVec F S256 .f32) (main_arg6 : FVec F S256x512 .f32) (main_arg7 : FVec F S256 .f32) (main_arg8 : FVec F S1537x256 .f32) (main_arg9 : FVec F S1537 .f32) (main_arg10 : FVec F S768 .f32) (main_arg11 : FVec F S1 .f32) : IVec S_ 1 :=
  let main_v0 : FVec F S65536x768 .f32 := Host.absf main_arg0
  let main_cst : FVec F S_ .f32 := constant S_ .f32 0x7F800000#32
  let main_v1 : FVec F S65536x768 .f32 := broadcastInDim S65536x768 ![] bcast_S_S65536x768 main_cst
  let main_v2 : IVec S65536x768 1 := cmpf .olt main_v0 main_v1
  let main_c : IVec S_ 1 := constantI S_ 1 1#1
  let main_v3 : IVec S_ 1 := (fun x v => Host.reduce IntOp.andi x v reducesTo_S65536x768_S_d0_1 h_S_) main_v2 main_c
  let main_v4 : FVec F S65536x64 .f32 := Host.absf main_arg1
  let main_cst_0 : FVec F S_ .f32 := constant S_ .f32 0x7F800000#32
  let main_v5 : FVec F S65536x64 .f32 := broadcastInDim S65536x64 ![] bcast_S_S65536x64 main_cst_0
  let main_v6 : IVec S65536x64 1 := cmpf .olt main_v4 main_v5
  let main_c_1 : IVec S_ 1 := constantI S_ 1 1#1
  let main_v7 : IVec S_ 1 := (fun x v => Host.reduce IntOp.andi x v reducesTo_S65536x64_S_d0_1 h_S_) main_v6 main_c_1
  let main_v8 : IVec S_ 1 := andi main_v3 main_v7
  let main_v9 : FVec F S256x768 .f32 := Host.absf main_arg2
  let main_cst_2 : FVec F S_ .f32 := constant S_ .f32 0x7F800000#32
  let main_v10 : FVec F S256x768 .f32 := broadcastInDim S256x768 ![] bcast_S_S256x768 main_cst_2
  let main_v11 : IVec S256x768 1 := cmpf .olt main_v9 main_v10
  let main_c_3 : IVec S_ 1 := constantI S_ 1 1#1
  let main_v12 : IVec S_ 1 := (fun x v => Host.reduce IntOp.andi x v reducesTo_S256x768_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_v13 main_v16
-- ==== Kernel.lean ====
abbrev S65536x768 : Shape := ⟨2, ![65536, 768]⟩
abbrev S65536x64 : Shape := ⟨2, ![65536, 64]⟩
abbrev S256x768 : Shape := ⟨2, ![256, 768]⟩
abbrev S256 : Shape := ⟨1, ![256]⟩
abbrev S256x256 : Shape := ⟨2, ![256, 256]⟩
abbrev S256x512 : Shape := ⟨2, ![256, 512]⟩
abbrev S1537x256 : Shape := ⟨2, ![1537, 256]⟩
abbrev S1537 : Shape := ⟨1, ![1537]⟩
abbrev S768 : Shape := ⟨1, ![768]⟩
abbrev S1 : Shape := ⟨1, ![1]⟩
abbrev S768x256 : Shape := ⟨2, ![768, 256]⟩
abbrev S1x256 : Shape := ⟨2, ![1, 256]⟩
abbrev S64x256 : Shape := ⟨2, ![64, 256]⟩
abbrev S1x64 : Shape := ⟨2, ![1, 64]⟩
abbrev S2048x768 : Shape := ⟨2, ![2048, 768]⟩
abbrev S2048x64 : Shape := ⟨2, ![2048, 64]⟩
abbrev S2048x256 : Shape := ⟨2, ![2048, 256]⟩
abbrev S64 : Shape := ⟨1, ![64]⟩
abbrev S_ : Shape := ⟨0, ![]⟩
abbrev S64x1 : Shape := ⟨2, ![64, 1]⟩
abbrev S64x512 : Shape := ⟨2, ![64, 512]⟩
abbrev S512x256 : Shape := ⟨2, ![512, 256]⟩
abbrev S256x1537 : Shape := ⟨2, ![256, 1537]⟩
abbrev S64x1537 : Shape := ⟨2, ![64, 1537]⟩
abbrev S1x1537 : Shape := ⟨2, ![1, 1537]⟩
abbrev S64x768 : Shape := ⟨2, ![64, 768]⟩
abbrev S1x768 : Shape := ⟨2, ![1, 768]⟩

abbrev nBuf : Space → Nat
  | .hbm => 70
  | .vmem => 11
  | .smem => 0
  | _ => 0

abbrev bufTy : (tb : Table) → Fin (tcTables nBuf tb) → BufTy
  | .hbm, ⟨0, _⟩ => ⟨S65536x768, .f32⟩
  | .hbm, ⟨1, _⟩ => ⟨S65536x64, .f32⟩
  | .hbm, ⟨2, _⟩ => ⟨S256x768, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x512, .f32⟩
  | .hbm, ⟨7, _⟩ => ⟨S256, .f32⟩
  | .hbm, ⟨8, _⟩ => ⟨S1537x256, .f32⟩
  | .hbm, ⟨9, _⟩ => ⟨S1537, .f32⟩
  | .hbm, ⟨10, _⟩ => ⟨S768, .f32⟩
  | .hbm, ⟨11, _⟩ => ⟨S1, .f32⟩
  | .hbm, ⟨12, _⟩ => ⟨S768x256, .f32⟩
  | .hbm, ⟨13, _⟩ => ⟨S768x256, .bf16⟩
  | .hbm, ⟨14, _⟩ => ⟨S256x256, .f32⟩
  | .hbm, ⟨15, _⟩ => ⟨S256x256, .bf16⟩
  | .hbm, ⟨16, _⟩ => ⟨S1x256, .f32⟩
  | .hbm, ⟨17, _⟩ => ⟨S1x256, .f32⟩
  | .hbm, ⟨18, _⟩ => ⟨S64x256, .f32⟩
  | .hbm, ⟨19, _⟩ => ⟨S64x256, .f32⟩
  | .hbm, ⟨20, _⟩ => ⟨S1x64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S64x1, .f32⟩
  | .hbm, ⟨32, _⟩ => ⟨S64x256, .f32⟩
  | .hbm, ⟨33, _⟩ => ⟨S64x256, .f32⟩
  | .hbm, ⟨34, _⟩ => ⟨S64x1, .f32⟩
  | .hbm, ⟨35, _⟩ => ⟨S64x256, .f32⟩
  | .hbm, ⟨36, _⟩ => ⟨S64x256, .f32⟩
  | .hbm, ⟨37, _⟩ => ⟨S64x512, .f32⟩
  | .hbm, ⟨38, _⟩ => ⟨S512x256, .f32⟩
  | .hbm, ⟨39, _⟩ => ⟨S64x256, .f32⟩
  | .hbm, ⟨40, _⟩ => ⟨S1x256, .f32⟩
  | .hbm, ⟨41, _⟩ => ⟨S64x256, .f32⟩
  | .hbm, ⟨42, _⟩ => ⟨S64x256, .f32⟩
  | .hbm, ⟨43, _⟩ => ⟨S_, .f32⟩
  | .hbm, ⟨44, _⟩ => ⟨S64x256, .f32⟩
  | .hbm, ⟨45, _⟩ => ⟨S64x256, .f32⟩
  | .hbm, ⟨46, _⟩ => ⟨S256x1537, .f32⟩
  | .hbm, ⟨47, _⟩ => ⟨S64x1537, .f32⟩
  | .hbm, ⟨48, _⟩ => ⟨S1x1537, .f32⟩
  | .hbm, ⟨49, _⟩ => ⟨S64x1537, .f32⟩
  | .hbm, ⟨50, _⟩ => ⟨S64x1537, .f32⟩
  | .hbm, ⟨51, _⟩ => ⟨S64x768, .f32⟩
  | .hbm, ⟨52, _⟩ => ⟨S64x1, .f32⟩
  | .hbm, ⟨53, _⟩ => ⟨S64, .f32⟩
  | .hbm, ⟨54, _⟩ => ⟨S64x768, .f32⟩
  | .hbm, ⟨55, _⟩ => ⟨S64x768, .f32⟩
  | .hbm, ⟨56, _⟩ => ⟨S64x768, .f32⟩
  | .hbm, ⟨57, _⟩ => ⟨S_, .f32⟩
  | .hbm, ⟨58, _⟩ => ⟨S64x768, .f32⟩
  | .hbm, ⟨59, _⟩ => ⟨S64x768, .f32⟩
  | .hbm, ⟨60, _⟩ => ⟨S_, .f32⟩
  | .hbm, ⟨61, _⟩ => ⟨S64x768, .f32⟩
  | .hbm, ⟨62, _⟩ => ⟨S64x768, .f32⟩
  | .hbm, ⟨63, _⟩ => ⟨S1x768, .f32⟩
  | .hbm, ⟨64, _⟩ => ⟨S64x768, .f32⟩
  | .hbm, ⟨65, _⟩ => ⟨S64x768, .f32⟩
  | .hbm, ⟨66, _⟩ => ⟨S64x768, .f32⟩
  | .hbm, ⟨67, _⟩ => ⟨S_, .f32⟩
  | .hbm, ⟨68, _⟩ => ⟨S64, .f32⟩
  | .hbm, ⟨69, _⟩ => ⟨S64, .f32⟩
  | .local _ .vmem, ⟨0, _⟩ => ⟨S2048x768, .f32⟩
  | .local _ .vmem, ⟨1, _⟩ => ⟨S2048x768, .f32⟩
  | .local _ .vmem, ⟨2, _⟩ => ⟨S2048x64, .f32⟩
  | .local _ .vmem, ⟨3, _⟩ => ⟨S2048x64, .f32⟩
  | .local _ .vmem, ⟨4, _⟩ => ⟨S768x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S64x256, .f32⟩
  | .local _ .vmem, ⟨9, _⟩ => ⟨S64x256, .f32⟩
  | .local _ .vmem, ⟨10, _⟩ => ⟨S1x64, .f32⟩
  | _, _ => ⟨S65536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call0_cst : Ref sig .tc := ⟨.hbm, 43, rfl⟩
abbrev main_call0_v0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_2 : Ref sig .tc := ⟨.hbm, 57, rfl⟩
abbrev main_v38 : Ref sig .tc := ⟨.hbm, 58, rfl⟩
abbrev main_v39 : Ref sig .tc := ⟨.hbm, 59, rfl⟩
abbrev main_cst_3 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  transposes_S256x768_S768x256_1_0 : S256x768.Transposes [1, 0] S768x256
  bitsLt_bf16_f32 : FTy.bits .bf16 < FTy.bits .f32
  transposes_S256x256_S256x256_1_0 : S256x256.Transposes [1, 0] S256x256
  shapeCasts_S256_S1x256 : S256.ShapeCasts S1x256
  inb_S64x256_S64x256_0_0 : ∀ a, (![0, 0] : Fin 2 → Nat) a + S64x256.size a ≤ S64x256.size a
  h_S64x256 : 0 < S64x256.numel
  inb_S1x64_S1x64_0_0 : ∀ a, (![0, 0] : Fin 2 → Nat) a + S1x64.size a ≤ S1x64.size a
  h_S1x64 : 0 < S1x64.numel
  inb_S2048x768_S2048x768_0_0 : ∀ a, (![0, 0] : Fin 2 → Nat) a + S2048x768.size a ≤ S2048x768.size a
  h_S2048x768 : 0 < S2048x768.numel
  inb_S768x256_S768x256_0_0 : ∀ a, (![0, 0] : Fin 2 → Nat) a + S768x256.size a ≤ S768x256.size a
  h_S768x256 : 0 < S768x256.numel
  shapeCasts_S768x256_S768x256 : S768x256.ShapeCasts S768x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S1x256_S2048x256 : S1x256.Broadcasts S2048x256
  inb_S2048x64_S2048x64_0_0 : ∀ a, (![0, 0] : Fin 2 → Nat) a + S2048x64.size a ≤ S2048x64.size a
  h_S2048x64 : 0 < S2048x64.numel
  shapeCasts_S64x256_S64x256 : S64x256.ShapeCasts S64x256
  shapeCasts_S1x64_S1x64 : S1x64.ShapeCasts S1x64
  reduces_S2048x64_S64 : S2048x64.Reduces [0] S64
  shapeCasts_S64_S1x64 : S64.ShapeCasts S1x64
  shapeCasts_S1x64_S64 : S1x64.ShapeCasts S64
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  concatenates_S64x256_S64x256_S64x512_d1 : Shape.Concatenates [S64x256, S64x256] S64x512 1
  transposes_S256x512_S512x256_1_0 : S256x512.Transposes [1, 0] S512x256
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S64x256 : S_.BroadcastsInDim S64x256 (![] : Fin 0 → Fin S64x256.rank)
  transposes_S1537x256_S256x1537_1_0 : S1537x256.Transposes [1, 0] S256x1537
  bcast_S1537_S1x1537_1 : S1537.BroadcastsInDim S1x1537 (![1] : Fin 1 → Fin S1x1537.rank)
  bcast_S1x1537_S64x1537_0_1 : S1x1537.BroadcastsInDim S64x1537 (![0, 1] : Fin 2 → Fin S64x1537.rank)
  slices_S64x1537_S64x768_0_0 : S64x1537.Slices ![0, 0] S64x768
  slices_S64x1537_S64x1_0_768 : S64x1537.Slices ![0, 768] S64x1
  shapeCasts_S64x1_S64 : S64x1.ShapeCasts S64
  slices_S64x1537_S64x768_0_769 : S64x1537.Slices ![0, 769] S64x768
  bcast_S_S64x768 : S_.BroadcastsInDim S64x768 (![] : Fin 0 → Fin S64x768.rank)
  bcast_S768_S1x768_1 : S768.BroadcastsInDim S1x768 (![1] : Fin 1 → Fin S1x768.rank)
  bcast_S1x768_S64x768_0_1 : S1x768.BroadcastsInDim S64x768 (![0, 1] : Fin 2 → Fin S64x768.rank)
  shapeCasts_S1_S_ : S1.ShapeCasts S_
  dot_S2048x768_S768x256_S2048x256_1_0_0_1_n_n_wf : DotDims.WF S2048x768 S768x256 S2048x256 [1] [0] [0] [1] [] []
  dot_S2048x256_S256x256_S2048x256_1_0_0_1_n_n_wf : DotDims.WF S2048x256 S256x256 S2048x256 [1] [0] [0] [1] [] []
  dot_S2048x64_S2048x256_S64x256_0_0_1_1_n_n_wf : DotDims.WF S2048x64 S2048x256 S64x256 [0] [0] [1] [1] [] []
  dot_S64x512_S512x256_S64x256_1_0_0_1_n_n_wf : DotDims.WF S64x512 S512x256 S64x256 [1] [0] [0] [1] [] []
  dot_S64x256_S256x1537_S64x1537_1_0_0_1_n_n_wf : DotDims.WF S64x256 S256x1537 S64x1537 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S65536x768.size a
  hwx0_0 : ∀ i : grid0.Coords, EltTy.bits .f32 = 32 ∨ (Rect.block (s := S65536x768) S2048x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S65536x64.size a
  hwx0_1 : ∀ i : grid0.Coords, EltTy.bits .f32 = 32 ∨ (Rect.block (s := S65536x64) S2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x256.size a ≤ S768x256.size a
  hwx0_2 : ∀ i : grid0.Coords, EltTy.bits .bf16 = 32 ∨ (Rect.block (s := S768x256) S768x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x256.size a ≤ S64x256.size a
  hwx0_6 : ∀ i : grid0.Coords, EltTy.bits .f32 = 32 ∨ (Rect.block (s := S64x256) S64x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x256.size a ≤ S64x256.size a
  hwx0_7 : ∀ i : grid0.Coords, EltTy.bits .f32 = 32 ∨ (Rect.block (s := S64x256) S64x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)

variable [Facts₀]

def dot_S2048x768_S768x256_S2048x256_1_0_0_1_n_n : DotDims S2048x768 S768x256 S2048x256 where
  lhsContracting := [1]
  rhsContracting := [0]
  lhsNonContracting := [0]
  rhsNonContracting := [1]
  lhsBatch := []
  rhsBatch := []
  wf := dot_S2048x768_S768x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x64_S2048x256_S64x256_0_0_1_1_n_n : DotDims S2048x64 S2048x256 S64x256 where
  lhsContracting := [0]
  rhsContracting := [0]
  lhsNonContracting := [1]
  rhsNonContracting := [1]
  lhsBatch := []
  rhsBatch := []
  wf := dot_S2048x64_S2048x256_S64x256_0_0_1_1_n_n_wf
def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf
def dot_S64x256_S256x1537_S64x1537_1_0_0_1_n_n : DotDims S64x256 S256x1537 S64x1537 where
  lhsContracting := [1]
  rhsContracting := [0]
  lhsNonContracting := [0]
  rhsNonContracting := [1]
  lhsBatch := []
  rhsBatch := []
  wf := dot_S64x256_S256x1537_S64x1537_1_0_0_1_n_n_wf

abbrev win0_0 : Pipeline.Window sig grid0 :=
  Pipeline.Window.ofSpec (Memref.whole main_arg0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S768x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S64x256.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S64x256.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6_2) S1x64.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x768 : Shape := ⟨2, ![65536, 768]⟩
abbrev S65536x64 : Shape := ⟨2, ![65536, 64]⟩
abbrev S256x768 : Shape := ⟨2, ![256, 768]⟩
abbrev S256 : Shape := ⟨1, ![256]⟩
abbrev S256x256 : Shape := ⟨2, ![256, 256]⟩
abbrev S256x512 : Shape := ⟨2, ![256, 512]⟩
abbrev S1537x256 : Shape := ⟨2, ![1537, 256]⟩
abbrev S1537 : Shape := ⟨1, ![1537]⟩
abbrev S768 : Shape := ⟨1, ![768]⟩
abbrev S1 : Shape := ⟨1, ![1]⟩
abbrev S768x256 : Shape := ⟨2, ![768, 256]⟩
abbrev S65536x256 : Shape := ⟨2, ![65536, 256]⟩
abbrev S1x256 : Shape := ⟨2, ![1, 256]⟩
abbrev S_ : Shape := ⟨0, ![]⟩
abbrev S64 : Shape := ⟨1, ![64]⟩
abbrev S64x65536 : Shape := ⟨2, ![64, 65536]⟩
abbrev S64x256 : Shape := ⟨2, ![64, 256]⟩
abbrev S64x1 : Shape := ⟨2, ![64, 1]⟩
abbrev S64x512 : Shape := ⟨2, ![64, 512]⟩
abbrev S512x256 : Shape := ⟨2, ![512, 256]⟩
abbrev S256x1537 : Shape := ⟨2, ![256, 1537]⟩
abbrev S64x1537 : Shape := ⟨2, ![64, 1537]⟩
abbrev S1x1537 : Shape := ⟨2, ![1, 1537]⟩
abbrev S64x768 : Shape := ⟨2, ![64, 768]⟩
abbrev S1x768 : Shape := ⟨2, ![1, 768]⟩

abbrev nBuf : Space → Nat
  | .hbm => 84
  | .vmem => 0
  | .smem => 0
  | _ => 0

abbrev bufTy : (tb : Table) → Fin (tcTables nBuf tb) → BufTy
  | .hbm, ⟨0, _⟩ => ⟨S65536x768, .f32⟩
  | .hbm, ⟨1, _⟩ => ⟨S65536x64, .f32⟩
  | .hbm, ⟨2, _⟩ => ⟨S256x768, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x512, .f32⟩
  | .hbm, ⟨7, _⟩ => ⟨S256, .f32⟩
  | .hbm, ⟨8, _⟩ => ⟨S1537x256, .f32⟩
  | .hbm, ⟨9, _⟩ => ⟨S1537, .f32⟩
  | .hbm, ⟨10, _⟩ => ⟨S768, .f32⟩
  | .hbm, ⟨11, _⟩ => ⟨S1, .f32⟩
  | .hbm, ⟨12, _⟩ => ⟨S768x256, .f32⟩
  | .hbm, ⟨13, _⟩ => ⟨S65536x256, .f32⟩
  | .hbm, ⟨14, _⟩ => ⟨S1x256, .f32⟩
  | .hbm, ⟨15, _⟩ => ⟨S65536x256, .f32⟩
  | .hbm, ⟨16, _⟩ => ⟨S65536x256, .f32⟩
  | .hbm, ⟨17, _⟩ => ⟨S_, .f32⟩
  | .hbm, ⟨18, _⟩ => ⟨S65536x256, .f32⟩
  | .hbm, ⟨19, _⟩ => ⟨S65536x256, .f32⟩
  | .hbm, ⟨20, _⟩ => ⟨S256x256, .f32⟩
  | .hbm, ⟨21, _⟩ => ⟨S65536x256, .f32⟩
  | .hbm, ⟨22, _⟩ => ⟨S1x256, .f32⟩
  | .hbm, ⟨23, _⟩ => ⟨S65536x256, .f32⟩
  | .hbm, ⟨24, _⟩ => ⟨S65536x256, .f32⟩
  | .hbm, ⟨25, _⟩ => ⟨S_, .f32⟩
  | .hbm, ⟨26, _⟩ => ⟨S65536x256, .f32⟩
  | .hbm, ⟨27, _⟩ => ⟨S65536x256, .f32⟩
  | .hbm, ⟨28, _⟩ => ⟨S_, .f32⟩
  | .hbm, ⟨29, _⟩ => ⟨S65536x64, .f32⟩
  | .hbm, ⟨30, _⟩ => ⟨S65536x64, .f32⟩
  | .hbm, ⟨31, _⟩ => ⟨S_, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S64x65536, .f32⟩
  | .hbm, ⟨42, _⟩ => ⟨S64x256, .f32⟩
  | .hbm, ⟨43, _⟩ => ⟨S64x1, .f32⟩
  | .hbm, ⟨44, _⟩ => ⟨S64x256, .f32⟩
  | .hbm, ⟨45, _⟩ => ⟨S64x256, .f32⟩
  | .hbm, ⟨46, _⟩ => ⟨S64x65536, .f32⟩
  | .hbm, ⟨47, _⟩ => ⟨S64x256, .f32⟩
  | .hbm, ⟨48, _⟩ => ⟨S64x1, .f32⟩
  | .hbm, ⟨49, _⟩ => ⟨S64x256, .f32⟩
  | .hbm, ⟨50, _⟩ => ⟨S64x256, .f32⟩
  | .hbm, ⟨51, _⟩ => ⟨S64x512, .f32⟩
  | .hbm, ⟨52, _⟩ => ⟨S512x256, .f32⟩
  | .hbm, ⟨53, _⟩ => ⟨S64x256, .f32⟩
  | .hbm, ⟨54, _⟩ => ⟨S1x256, .f32⟩
  | .hbm, ⟨55, _⟩ => ⟨S64x256, .f32⟩
  | .hbm, ⟨56, _⟩ => ⟨S64x256, .f32⟩
  | .hbm, ⟨57, _⟩ => ⟨S_, .f32⟩
  | .hbm, ⟨58, _⟩ => ⟨S64x256, .f32⟩
  | .hbm, ⟨59, _⟩ => ⟨S64x256, .f32⟩
  | .hbm, ⟨60, _⟩ => ⟨S256x1537, .f32⟩
  | .hbm, ⟨61, _⟩ => ⟨S64x1537, .f32⟩
  | .hbm, ⟨62, _⟩ => ⟨S1x1537, .f32⟩
  | .hbm, ⟨63, _⟩ => ⟨S64x1537, .f32⟩
  | .hbm, ⟨64, _⟩ => ⟨S64x1537, .f32⟩
  | .hbm, ⟨65, _⟩ => ⟨S64x768, .f32⟩
  | .hbm, ⟨66, _⟩ => ⟨S64x1, .f32⟩
  | .hbm, ⟨67, _⟩ => ⟨S64, .f32⟩
  | .hbm, ⟨68, _⟩ => ⟨S64x768, .f32⟩
  | .hbm, ⟨69, _⟩ => ⟨S64x768, .f32⟩
  | .hbm, ⟨70, _⟩ => ⟨S64x768, .f32⟩
  | .hbm, ⟨71, _⟩ => ⟨S_, .f32⟩
  | .hbm, ⟨72, _⟩ => ⟨S64x768, .f32⟩
  | .hbm, ⟨73, _⟩ => ⟨S64x768, .f32⟩
  | .hbm, ⟨74, _⟩ => ⟨S_, .f32⟩
  | .hbm, ⟨75, _⟩ => ⟨S64x768, .f32⟩
  | .hbm, ⟨76, _⟩ => ⟨S64x768, .f32⟩
  | .hbm, ⟨77, _⟩ => ⟨S1x768, .f32⟩
  | .hbm, ⟨78, _⟩ => ⟨S64x768, .f32⟩
  | .hbm, ⟨79, _⟩ => ⟨S64x768, .f32⟩
  | .hbm, ⟨80, _⟩ => ⟨S64x768, .f32⟩
  | .hbm, ⟨81, _⟩ => ⟨S_, .f32⟩
  | .hbm, ⟨82, _⟩ => ⟨S64, .f32⟩
  | .hbm, ⟨83, _⟩ => ⟨S64, .f32⟩
  | _, _ => ⟨S65536x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_cst : Ref sig .tc := ⟨.hbm, 25, rfl⟩
abbrev main_call1_v0 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_cst_0 : Ref sig .tc := ⟨.hbm, 31, rfl⟩
abbrev main_v14 : Ref sig .tc := ⟨.hbm, 32, rfl⟩
abbrev main_cst_1 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call2_cst : Ref sig .tc := ⟨.hbm, 57, rfl⟩
abbrev main_call2_v0 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_4 : Ref sig .tc := ⟨.hbm, 71, rfl⟩
abbrev main_v48 : Ref sig .tc := ⟨.hbm, 72, rfl⟩
abbrev main_v49 : Ref sig .tc := ⟨.hbm, 73, rfl⟩
abbrev main_cst_5 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]

class Facts₀ : Prop where
  transposes_S256x768_S768x256_1_0 : S256x768.Transposes [1, 0] S768x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  transposes_S256x256_S256x256_1_0 : S256x256.Transposes [1, 0] S256x256
  bcast_S_S65536x64 : S_.BroadcastsInDim S65536x64 (![] : Fin 0 → Fin S65536x64.rank)
  reducesTo_S65536x64_S64_d0 : S65536x64.ReducesTo [0] S64
  h_S_ : 0 < S_.numel
  bcast_S_S64 : S_.BroadcastsInDim S64 (![] : Fin 0 → Fin S64.rank)
  transposes_S65536x64_S64x65536_1_0 : S65536x64.Transposes [1, 0] S64x65536
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  concatenates_S64x256_S64x256_S64x512_d1 : Shape.Concatenates [S64x256, S64x256] S64x512 1
  transposes_S256x512_S512x256_1_0 : S256x512.Transposes [1, 0] S512x256
  bcast_S1x256_S64x256_0_1 : S1x256.BroadcastsInDim S64x256 (![0, 1] : Fin 2 → Fin S64x256.rank)
  bcast_S_S64x256 : S_.BroadcastsInDim S64x256 (![] : Fin 0 → Fin S64x256.rank)
  transposes_S1537x256_S256x1537_1_0 : S1537x256.Transposes [1, 0] S256x1537
  bcast_S1537_S1x1537_1 : S1537.BroadcastsInDim S1x1537 (![1] : Fin 1 → Fin S1x1537.rank)
  bcast_S1x1537_S64x1537_0_1 : S1x1537.BroadcastsInDim S64x1537 (![0, 1] : Fin 2 → Fin S64x1537.rank)
  slices_S64x1537_S64x768_0_0 : S64x1537.Slices ![0, 0] S64x768
  slices_S64x1537_S64x1_0_768 : S64x1537.Slices ![0, 768] S64x1
  shapeCasts_S64x1_S64 : S64x1.ShapeCasts S64
  slices_S64x1537_S64x768_0_769 : S64x1537.Slices ![0, 769] S64x768
  bcast_S_S64x768 : S_.BroadcastsInDim S64x768 (![] : Fin 0 → Fin S64x768.rank)
  bcast_S768_S1x768_1 : S768.BroadcastsInDim S1x768 (![1] : Fin 1 → Fin S1x768.rank)
  bcast_S1x768_S64x768_0_1 : S1x768.BroadcastsInDim S64x768 (![0, 1] : Fin 2 → Fin S64x768.rank)
  shapeCasts_S1_S_ : S1.ShapeCasts S_
  dot_S65536x768_S768x256_S65536x256_1_0_0_1_n_n_wf : DotDims.WF S65536x768 S768x256 S65536x256 [1] [0] [0] [1] [] []
  dot_S65536x256_S256x256_S65536x256_1_0_0_1_n_n_wf : DotDims.WF S65536x256 S256x256 S65536x256 [1] [0] [0] [1] [] []
  dot_S64x65536_S65536x256_S64x256_1_0_0_1_n_n_wf : DotDims.WF S64x65536 S65536x256 S64x256 [1] [0] [0] [1] [] []
  dot_S64x512_S512x256_S64x256_1_0_0_1_n_n_wf : DotDims.WF S64x512 S512x256 S64x256 [1] [0] [0] [1] [] []
  dot_S64x256_S256x1537_S64x1537_1_0_0_1_n_n_wf : DotDims.WF S64x256 S256x1537 S64x1537 [1] [0] [0] [1] [] []

variable [Facts₀]

def dot_S65536x768_S768x256_S65536x256_1_0_0_1_n_n : DotDims S65536x768 S768x256 S65536x256 where
  lhsContracting := [1]
  rhsContracting := [0]
  lhsNonContracting := [0]
  rhsNonContracting := [1]
  lhsBatch := []
  rhsBatch := []
  wf := dot_S65536x768_S768x256_S65536x256_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S64x65536_S65536x256_S64x256_1_0_0_1_n_n : DotDims S64x65536 S65536x256 S64x256 where
  lhsContracting := [1]
  rhsContracting := [0]
  lhsNonContracting := [0]
  rhsNonContracting := [1]
  lhsBatch := []
  rhsBatch := []
  wf := dot_S64x65536_S65536x256_S64x256_1_0_0_1_n_n_wf
def dot_S64x512_S512x256_S64x256_1_0_0_1_n_n : DotDims S64x512 S512x256 S64x256 where
  lhsContracting := [1]
  rhsContracting := [0]
  lhsNonContracting := [0]
  rhsNonContracting := [1]
  lhsBatch := []
  rhsBatch := []
  wf := dot_S64x512_S512x256_S64x256_1_0_0_1_n_n_wf
def dot_S64x256_S256x1537_S64x1537_1_0_0_1_n_n : DotDims S64x256 S256x1537 S64x1537 where
  lhsContracting := [1]
  rhsContracting := [0]
  lhsNonContracting := [0]
  rhsNonContracting := [1]
  lhsBatch := []
  rhsBatch := []
  wf := dot_S64x256_S256x1537_S64x1537_1_0_0_1_n_n_wf

class Facts : Prop extends Facts₀ where

variable [Facts]
-- ==== Proof.KPieces.lean ====
/-
  What one run of the kernel body leaves in each of its three accumulators, as a value.

  The body first forms, from the point's block x of Xs and the resident weights, the hidden activations
  h = relu(relu(x·W1ᵀ + b1)·W2ᵀ + b2) of the block's rows, and from the point's block y of ys its complement 1 − y.
  It then adds to the first accumulator the product yᵀ·h, to the second (1 − y)ᵀ·h, and to the third the column
  sums of y. At the first grid point the accumulators are first set to zero and then read back, so what is added to
  is the zero block; at every later point it is what the point before left.

  Each lemma reads the one store that covers an accumulator's block (after the reset's store, at the first point) as
  its payload — the body's arithmetic as a pure term of the blocks loaded.
-/
import proofs.«123320_j45148696215988_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-! ## The first grid point: each accumulator is reset, read back, and added to -/

theorem out_A_6 (c : Dev nD) (i : grid0.Coords) (a1 : Memref sig .tc .vmem S2048x768 .f32) (h1 : a1.IsWhole) (a2 : Memref sig .tc .vmem S2048x64 .f32) (h2 : a2.IsWhole)
    (a3 : Memref sig .tc .vmem S768x256 .bf16) (h3 : a3.IsWhole) (a4 : Memref sig .tc .vmem S1x256 .f32) (h4 : a4.IsWhole)
    (a5 : Memref sig .tc .vmem S256x256 .bf16) (h5 : a5.IsWhole) (a6 : Memref sig .tc .vmem S1x256 .f32) (h6 : a6.IsWhole)
    (a7 : Memref sig .tc .vmem S64x256 .f32) (h7 : a7.IsWhole) (a8 : Memref sig .tc .vmem S64x256 .f32) (h8 : a8.IsWhole)
    (a9 : Memref sig .tc .vmem S1x64 .f32) (h9 : a9.IsWhole) (hc : cond0_0 i) (x0 : Vec F S2048x768 .f32) (x1 : Vec F S2048x64 .f32) (x2 : Vec F S768x256 .bf16) (x3 : Vec F S1x256 .f32) (x4 : Vec F S256x256 .bf16) (x5 : Vec F S1x256 .f32) :
    out0_A_6 c i a1 h1 a2 h2 a3 h3 a4 h4 a5 h5 a6 h6 a7 h7 a8 h8 a9 h9 hc x0 x1 x2 x3 x4 x5 = k0_pay8 x0 x2 x3 x4 x5 x1 (k0_pay3 (F := F)) := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S64x256) hz]
  simp only [View.readAt_eq_ld, h1.read_unread, h2.read_unread, h3.read_unread, h4.read_unread, h5.read_unread, h6.read_unread, h7.read_unread, h8.read_unread, h9.read_unread, View.ld_unit_zero (S := S2048x768) hz, View.ld_unit_zero (S := S2048x64) hz, View.ld_unit_zero (S := S768x256) hz, View.ld_unit_zero (S := S1x256) hz, View.ld_unit_zero (S := S256x256) hz, View.ld_unit_zero (S := S64x256) hz, View.ld_unit_zero (S := S1x64) hz, View.readCov_unit_zero (S := S64x256) _ hz, View.readCov_unit_zero (S := S1x64) _ hz]

theorem out_A_7 (c : Dev nD) (i : grid0.Coords) (a1 : Memref sig .tc .vmem S2048x768 .f32) (h1 : a1.IsWhole) (a2 : Memref sig .tc .vmem S2048x64 .f32) (h2 : a2.IsWhole)
    (a3 : Memref sig .tc .vmem S768x256 .bf16) (h3 : a3.IsWhole) (a4 : Memref sig .tc .vmem S1x256 .f32) (h4 : a4.IsWhole)
    (a5 : Memref sig .tc .vmem S256x256 .bf16) (h5 : a5.IsWhole) (a6 : Memref sig .tc .vmem S1x256 .f32) (h6 : a6.IsWhole)
    (a7 : Memref sig .tc .vmem S64x256 .f32) (h7 : a7.IsWhole) (a8 : Memref sig .tc .vmem S64x256 .f32) (h8 : a8.IsWhole)
    (a9 : Memref sig .tc .vmem S1x64 .f32) (h9 : a9.IsWhole) (hc : cond0_0 i) (x0 : Vec F S2048x768 .f32) (x1 : Vec F S2048x64 .f32) (x2 : Vec F S768x256 .bf16) (x3 : Vec F S1x256 .f32) (x4 : Vec F S256x256 .bf16) (x5 : Vec F S1x256 .f32) :
    out0_A_7 c i a1 h1 a2 h2 a3 h3 a4 h4 a5 h5 a6 h6 a7 h7 a8 h8 a9 h9 hc x0 x1 x2 x3 x4 x5 = k0_pay1 (k0_pay6 x0 x2 x3 x4 x5) (k0_pay7 x1) (k0_pay4 (F := F)) := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S64x256) hz]
  simp only [View.readAt_eq_ld, h1.read_unread, h2.read_unread, h3.read_unread, h4.read_unread, h5.read_unread, h6.read_unread, h7.read_unread, h8.read_unread, h9.read_unread, View.ld_unit_zero (S := S2048x768) hz, View.ld_unit_zero (S := S2048x64) hz, View.ld_unit_zero (S := S768x256) hz, View.ld_unit_zero (S := S1x256) hz, View.ld_unit_zero (S := S256x256) hz, View.ld_unit_zero (S := S64x256) hz, View.ld_unit_zero (S := S1x64) hz, View.readCov_unit_zero (S := S64x256) _ hz, View.readCov_unit_zero (S := S1x64) _ hz]

theorem out_A_8 (c : Dev nD) (i : grid0.Coords) (a1 : Memref sig .tc .vmem S2048x768 .f32) (h1 : a1.IsWhole) (a2 : Memref sig .tc .vmem S2048x64 .f32) (h2 : a2.IsWhole)
    (a3 : Memref sig .tc .vmem S768x256 .bf16) (h3 : a3.IsWhole) (a4 : Memref sig .tc .vmem S1x256 .f32) (h4 : a4.IsWhole)
    (a5 : Memref sig .tc .vmem S256x256 .bf16) (h5 : a5.IsWhole) (a6 : Memref sig .tc .vmem S1x256 .f32) (h6 : a6.IsWhole)
    (a7 : Memref sig .tc .vmem S64x256 .f32) (h7 : a7.IsWhole) (a8 : Memref sig .tc .vmem S64x256 .f32) (h8 : a8.IsWhole)
    (a9 : Memref sig .tc .vmem S1x64 .f32) (h9 : a9.IsWhole) (hc : cond0_0 i) (x0 : Vec F S2048x768 .f32) (x1 : Vec F S2048x64 .f32) (x2 : Vec F S768x256 .bf16) (x3 : Vec F S1x256 .f32) (x4 : Vec F S256x256 .bf16) (x5 : Vec F S1x256 .f32) :
    out0_A_8 c i a1 h1 a2 h2 a3 h3 a4 h4 a5 h5 a6 h6 a7 h7 a8 h8 a9 h9 hc x0 x1 x2 x3 x4 x5 = k0_pay2 x1 (k0_pay5 (F := F)) := by
  unfold out0_A_8
  rw [View.read_writes_eq_canon _ _ _ (cover0_A_8 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x64) hz]
  simp only [View.readAt_eq_ld, h1.read_unread, h2.read_unread, h3.read_unread, h4.read_unread, h5.read_unread, h6.read_unread, h7.read_unread, h8.read_unread, h9.read_unread, View.ld_unit_zero (S := S2048x768) hz, View.ld_unit_zero (S := S2048x64) hz, View.ld_unit_zero (S := S768x256) hz, View.ld_unit_zero (S := S1x256) hz, View.ld_unit_zero (S := S256x256) hz, View.ld_unit_zero (S := S64x256) hz, View.ld_unit_zero (S := S1x64) hz, View.readCov_unit_zero (S := S64x256) _ hz, View.readCov_unit_zero (S := S1x64) _ hz]

/-! ## Every later grid point: each accumulator is added to over what the point before left -/

theorem out_B_6 (c : Dev nD) (i : grid0.Coords) (a1 : Memref sig .tc .vmem S2048x768 .f32) (h1 : a1.IsWhole) (a2 : Memref sig .tc .vmem S2048x64 .f32) (h2 : a2.IsWhole)
    (a3 : Memref sig .tc .vmem S768x256 .bf16) (h3 : a3.IsWhole) (a4 : Memref sig .tc .vmem S1x256 .f32) (h4 : a4.IsWhole)
    (a5 : Memref sig .tc .vmem S256x256 .bf16) (h5 : a5.IsWhole) (a6 : Memref sig .tc .vmem S1x256 .f32) (h6 : a6.IsWhole)
    (a7 : Memref sig .tc .vmem S64x256 .f32) (h7 : a7.IsWhole) (a8 : Memref sig .tc .vmem S64x256 .f32) (h8 : a8.IsWhole)
    (a9 : Memref sig .tc .vmem S1x64 .f32) (h9 : a9.IsWhole) (hc : ¬cond0_0 i) (x0 : Vec F S2048x768 .f32) (x1 : Vec F S2048x64 .f32) (x2 : Vec F S768x256 .bf16) (x3 : Vec F S1x256 .f32) (x4 : Vec F S256x256 .bf16) (x5 : Vec F S1x256 .f32) (xo6 : Vec F S64x256 .f32) (xo7 : Vec F S64x256 .f32) (xo8 : Vec F S1x64 .f32) :
    out0_B_6 c i a1 h1 a2 h2 a3 h3 a4 h4 a5 h5 a6 h6 a7 h7 a8 h8 a9 h9 hc x0 x1 x2 x3 x4 x5 xo6 xo7 xo8 = k0_pay8 x0 x2 x3 x4 x5 x1 xo6 := by
  unfold out0_B_6
  rw [View.read_writes_eq_canon _ _ _ (cover0_B_6 c i a1 h1 a2 h2 a3 h3 a4 h4 a5 h5 a6 h6 a7 h7 a8 h8 a9 h9 hc x0 x1 x2 x3 x4 x5 xo6 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S2048x768) hz, View.ld_unit_zero (S := S2048x64) hz, View.ld_unit_zero (S := S768x256) hz, View.ld_unit_zero (S := S1x256) hz, View.ld_unit_zero (S := S256x256) hz, View.ld_unit_zero (S := S64x256) hz, View.ld_unit_zero (S := S1x64) hz]

theorem out_B_7 (c : Dev nD) (i : grid0.Coords) (a1 : Memref sig .tc .vmem S2048x768 .f32) (h1 : a1.IsWhole) (a2 : Memref sig .tc .vmem S2048x64 .f32) (h2 : a2.IsWhole)
    (a3 : Memref sig .tc .vmem S768x256 .bf16) (h3 : a3.IsWhole) (a4 : Memref sig .tc .vmem S1x256 .f32) (h4 : a4.IsWhole)
    (a5 : Memref sig .tc .vmem S256x256 .bf16) (h5 : a5.IsWhole) (a6 : Memref sig .tc .vmem S1x256 .f32) (h6 : a6.IsWhole)
    (a7 : Memref sig .tc .vmem S64x256 .f32) (h7 : a7.IsWhole) (a8 : Memref sig .tc .vmem S64x256 .f32) (h8 : a8.IsWhole)
    (a9 : Memref sig .tc .vmem S1x64 .f32) (h9 : a9.IsWhole) (hc : ¬cond0_0 i) (x0 : Vec F S2048x768 .f32) (x1 : Vec F S2048x64 .f32) (x2 : Vec F S768x256 .bf16) (x3 : Vec F S1x256 .f32) (x4 : Vec F S256x256 .bf16) (x5 : Vec F S1x256 .f32) (xo6 : Vec F S64x256 .f32) (xo7 : Vec F S64x256 .f32) (xo8 : Vec F S1x64 .f32) :
    out0_B_7 c i a1 h1 a2 h2 a3 h3 a4 h4 a5 h5 a6 h6 a7 h7 a8 h8 a9 h9 hc x0 x1 x2 x3 x4 x5 xo6 xo7 xo8 = k0_pay1 (k0_pay6 x0 x2 x3 x4 x5) (k0_pay7 x1) xo7 := by
  unfold out0_B_7
  rw [View.read_writes_eq_canon _ _ _ (cover0_B_7 c i a1 h1 a2 h2 a3 h3 a4 h4 a5 h5 a6 h6 a7 h7 a8 h8 a9 h9 hc x0 x1 x2 x3 x4 x5 xo6 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S2048x768) hz, View.ld_unit_zero (S := S2048x64) hz, View.ld_unit_zero (S := S768x256) hz, View.ld_unit_zero (S := S1x256) hz, View.ld_unit_zero (S := S256x256) hz, View.ld_unit_zero (S := S64x256) hz, View.ld_unit_zero (S := S1x64) hz]

theorem out_B_8 (c : Dev nD) (i : grid0.Coords) (a1 : Memref sig .tc .vmem S2048x768 .f32) (h1 : a1.IsWhole) (a2 : Memref sig .tc .vmem S2048x64 .f32) (h2 : a2.IsWhole)
    (a3 : Memref sig .tc .vmem S768x256 .bf16) (h3 : a3.IsWhole) (a4 : Memref sig .tc .vmem S1x256 .f32) (h4 : a4.IsWhole)
    (a5 : Memref sig .tc .vmem S256x256 .bf16) (h5 : a5.IsWhole) (a6 : Memref sig .tc .vmem S1x256 .f32) (h6 : a6.IsWhole)
    (a7 : Memref sig .tc .vmem S64x256 .f32) (h7 : a7.IsWhole) (a8 : Memref sig .tc .vmem S64x256 .f32) (h8 : a8.IsWhole)
    (a9 : Memref sig .tc .vmem S1x64 .f32) (h9 : a9.IsWhole) (hc : ¬cond0_0 i) (x0 : Vec F S2048x768 .f32) (x1 : Vec F S2048x64 .f32) (x2 : Vec F S768x256 .bf16) (x3 : Vec F S1x256 .f32) (x4 : Vec F S256x256 .bf16) (x5 : Vec F S1x256 .f32) (xo6 : Vec F S64x256 .f32) (xo7 : Vec F S64x256 .f32) (xo8 : Vec F S1x64 .f32) :
    out0_B_8 c i a1 h1 a2 h2 a3 h3 a4 h4 a5 h5 a6 h6 a7 h7 a8 h8 a9 h9 hc x0 x1 x2 x3 x4 x5 xo6 xo7 xo8 = k0_pay2 x1 xo8 := by
  unfold out0_B_8
  rw [View.read_writes_eq_canon _ _ _ (cover0_B_8 c i a1 h1 a2 h2 a3 h3 a4 h4 a5 h5 a6 h6 a7 h7 a8 h8 a9 h9 hc x0 x1 x2 x3 x4 x5 xo6 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, View.ld_unit_zero (S := S2048x768) hz, View.ld_unit_zero (S := S2048x64) hz, View.ld_unit_zero (S := S768x256) hz, View.ld_unit_zero (S := S1x256) hz, View.ld_unit_zero (S := S256x256) hz, View.ld_unit_zero (S := S64x256) hz, View.ld_unit_zero (S := S1x64) hz]

end Cert.KernelIdeal.Pieces

end
-- ==== Proof.PoolSums.lean ====
/-
  Sums over the pooled axis, on the extended reals.

  The pooled axis has 65536 = 32 · 2048 rows. Row s = 2048·t + r is row r of tile t, so a sum over all rows
  is the sum over the tiles of the sums over a tile's rows (`sum_tiles`), whatever the summand: addition on the
  extended reals is commutative and associative. Accumulating the tiles' sums one tile after another from zero
  gives, after tile n, the sum over the tiles 0 … n (`Finset.sum_range_succ`), and after the last tile the sum over
  all of them (`sum_range_tiles`).

  One identity needs finite values: for real y(s), the sum of 1 − y(s) over N rows is N minus the sum of the y(s)
  (`sum_one_sub`). On the extended reals it fails when some y(s) is +∞ and another −∞.

  The three float constants the programs spell, as the reals they denote: 0, 1 and 65536; and the hidden activations of
  one row as a function of the row and the transposed weights (`mlp`), which both programs compute.
-/
import Idealize.ShloMosaic.PureOps.Ideal
import Mathlib.Algebra.BigOperators.Fin
import Mathlib.Logic.Equiv.Fin.Basic
import Idealize.ShloMosaic.Lib.ValueIdx

open scoped BigOperators

noncomputable section

namespace Cert.Pool

open Idealize.ShloMosaic Idealize.ShloMosaic.ValueIdx

/-! ## The constants -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_65536 : Ideal.ofBits .f32 0x47800000#32 = ((65536 : ℝ) : EReal) := by
  simp [Ideal.ofBits, Ideal.ieee, -EReal.coe_mul]; norm_num

/-! ## One row through the two dense layers -/

/-- The hidden activations of one row `x` of the pooled array: two dense layers, each followed by a clamp at zero, with
    the weights given already transposed (`w1 e k` is the weight from input feature `e` to hidden unit `k`). -/
def mlp (x : Fin 768 → EReal) (w1 : Fin 768 → Fin 256 → EReal) (b1 : Fin 256 → EReal)
    (w2 : Fin 256 → Fin 256 → EReal) (b2 : Fin 256 → EReal) (d : Fin 256) : EReal :=
  max ((∑ k : Fin 256, max ((∑ e : Fin 768, x e * w1 e k) + b1 k) 0 * w2 k d) + b2 d) 0

/-! ## Rows by tile -/

/-- Row `r` of tile `t`: row `2048·t + r` of the pooled axis. -/
def rowOf (t : Fin 32) (r : Fin 2048) : Fin 65536 :=
  ⟨2048 * t.val + r.val, by have := t.isLt; have := r.isLt; omega⟩

theorem rowOf_val (t : Fin 32) (r : Fin 2048) : (rowOf t r).val = 2048 * t.val + r.val := rfl

/-- A sum over all rows is the sum over the tiles of the sums over each tile's rows. -/
theorem sum_tiles {α : Type*} [AddCommMonoid α] (f : Fin 65536 → α) :
    ∑ t : Fin 32, ∑ r : Fin 2048, f (rowOf t r) = ∑ s : Fin 65536, f s := by
  have e : ∀ x : Fin 32 × Fin 2048, (finProdFinEquiv x : Fin 65536) = rowOf x.1 x.2 := fun x =>
    Fin.ext (by rw [rowOf_val]; show x.2.val + 2048 * x.1.val = _; omega)
  rw [← (finProdFinEquiv (m := 32) (n := 2048)).sum_comp f, Fintype.sum_prod_type]
  exact Finset.sum_congr rfl fun t _ => Finset.sum_congr rfl fun r _ => by rw [e (t, r)]

/-- The tiles' contributions taken in order from tile 0 through tile 31 are all of them. -/
theorem sum_range_tiles {α : Type*} [AddCommMonoid α] (g : ℕ → α) :
    ∑ t ∈ Finset.range 32, g t = ∑ t : Fin 32, g t.val :=
  (Fin.sum_univ_eq_sum_range g 32).symm

/-! ## The complement's sum, at finite values -/

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- At real values the sum of `1 − y(s)` over `N` rows is `N` minus the sum of the `y(s)`. -/
theorem sum_one_sub {N : ℕ} (y : Fin N → EReal) (hy : ∀ s, ∃ r : ℝ, y s = (r : EReal)) :
    ∑ s : Fin N, ((1 : EReal) - y s) = ((N : ℝ) : EReal) - ∑ s : Fin N, y s := by
  choose r hr using hy
  have h1 : ∀ s, (1 : EReal) - y s = ((1 - r s : ℝ) : EReal) := fun s => by
    rw [hr s, EReal.coe_sub, EReal.coe_one]
  have h2 : ∑ s : Fin N, y s = ((∑ s : Fin N, r s : ℝ) : EReal) := by
    rw [coe_sum]; exact Finset.sum_congr rfl fun s _ => hr s
  rw [Finset.sum_congr rfl fun s _ => h1 s, ← coe_sum, h2, ← EReal.coe_sub]
  congr 1
  rw [Finset.sum_sub_distrib]
  simp

/-! ## The pooled sums, as functions of the whole arrays -/

section Pooled

variable (X : (⟨2, ![65536, 768]⟩ : Shape).Idx → EReal) (Y : (⟨2, ![65536, 64]⟩ : Shape).Idx → EReal)
  (W1t : (⟨2, ![768, 256]⟩ : Shape).Idx → EReal) (b1 : (⟨1, ![256]⟩ : Shape).Idx → EReal)
  (W2t : (⟨2, ![256, 256]⟩ : Shape).Idx → EReal) (b2 : (⟨1, ![256]⟩ : Shape).Idx → EReal)

/-- The hidden activations of row `s` of `X`, at hidden unit `d`. -/
def hrow (s : Fin 65536) (d : Fin 256) : EReal :=
  mlp (fun e => X (ix2 s e)) (fun e k => W1t (ix2 e k)) (fun k => b1 (ix1 k)) (fun k d => W2t (ix2 k d))
    (fun d => b2 (ix1 d)) d

/-- `Yᵀ·H`: at (c, d) the sum over all rows s of Y(s, c) · H(s, d). -/
def poolPos : (⟨2, ![64, 256]⟩ : Shape).Idx → EReal :=
  fun j => ∑ s : Fin 65536, Y (ix2 s (j 0)) * hrow X W1t b1 W2t b2 s (j 1)

/-- `(1 − Y)ᵀ·H`. -/
def poolNeg : (⟨2, ![64, 256]⟩ : Shape).Idx → EReal :=
  fun j => ∑ s : Fin 65536, (1 - Y (ix2 s (j 0))) * hrow X W1t b1 W2t b2 s (j 1)

/-- The column sums of `Y`. -/
def colSum : (⟨1, ![64]⟩ : Shape).Idx → EReal := fun j => ∑ s : Fin 65536, Y (ix2 s (j 0))

/-- The column sums of `1 − Y`. -/
def colSumNeg : (⟨1, ![64]⟩ : Shape).Idx → EReal := fun j => ∑ s : Fin 65536, (1 - Y (ix2 s (j 0)))

/-- At finite `Y` the column sums of `1 − Y` are 65536 minus the column sums of `Y`. -/
theorem colSumNeg_eq (hY : ∀ i, ∃ r : ℝ, Y i = (r : EReal)) (j : (⟨1, ![64]⟩ : Shape).Idx) :
    colSumNeg Y j = ((65536 : ℝ) : EReal) - colSum Y j := by
  unfold colSumNeg colSum
  have h := sum_one_sub (N := 65536) (fun s => Y (ix2 s (j 0))) (fun s => hY _)
  rw [h]
  norm_num

end Pooled

end Cert.Pool

end
-- ==== Proof.LibPlainDot.lean ====
import Idealize.ShloMosaic.PureOps.Ideal.Laws
import Idealize.ShloMosaic.Lib.ValueIdx
import Idealize.ShloMosaic.PureOps.Dims

/-!
  A plain matrix product: a left operand of shape [M, K] contracted on its axis 1 against a right operand of shape
  [K, N] contracted on its axis 0, with no batch axes, gives a result of shape [M, N] whose entry (p, q) is the sum
  over k < K of l(p, k) · r(k, q). The dimension record is a variable and its six lists are hypotheses, so the lemmas
  apply to every record of this shape.
-/

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

/-- With one contracting axis the contraction shape has rank one. -/
theorem rank_contr_eq_one (hlc : d.lhsContracting = [1]) : d.contr.rank = 1 := by
  rw [d.rank_contr, hlc]; rfl

/-- The one axis of the contraction shape has the extent K of the left operand's axis 1. -/
theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

/-- The left operand's index reads, on its non-contracting axis 0, the result index's row. -/
theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- The right operand's index reads, on its non-contracting axis 1, the result index's column. -/
theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum of a plain matrix product at entry (p, q), re-indexed by the one contraction coordinate, is the
    sum over k < K of l(p, k) · r(k, q). -/
theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- A plain matrix product accumulated into the zero splat, read at entry (p, q) at the ideal values, is the sum over
    k < K of l(p, k) · r(k, q). -/
theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

/-- The host's plain matrix product, read at entry (p, q) at the ideal values, is the sum over k < K of
    l(p, k) · r(k, q), whatever the schedule. -/
theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.LibRowDot.lean ====
import Idealize.ShloMosaic.PureOps.Ideal.Laws
import Idealize.ShloMosaic.Lib.ValueIdx
import Idealize.ShloMosaic.PureOps.Dims

/-!
  A matrix product that contracts the ROWS of both operands: a left operand of shape [K, M] and a right operand of
  shape [K, N], each contracted on its axis 0, with no batch axes, give a result of shape [M, N] whose entry (p, q) is
  the sum over k < K of l(k, p) · r(k, q) — the transpose of the left operand times the right one, with no transpose
  ever formed. The dimension record is a variable and its six lists are hypotheses, so the lemmas apply to every record
  of this shape.
-/

open scoped BigOperators

namespace Cert.Lib.RowDot

open Idealize.ShloMosaic Idealize.ShloMosaic.ValueIdx

variable {K M N : Nat} (d : DotDims ⟨2, ![K, M]⟩ ⟨2, ![K, N]⟩ ⟨2, ![M, N]⟩)

/-- One contracted axis: the contraction shape has rank one. -/
theorem contr_rank (hlc : d.lhsContracting = [0]) : d.contr.rank = 1 := by
  rw [d.rank_contr, hlc]; rfl

/-- Its one axis has the extent K of the operands' axis 0. -/
theorem contr_size (hlc : d.lhsContracting = [0]) :
    d.contr.size ⟨0, by rw [contr_rank d hlc]; exact Nat.one_pos⟩ = K := by
  have h0 : 0 < d.lhsContracting.length := by rw [hlc]; exact Nat.one_pos
  rw [d.size_contr 0 h0]
  have h1 : d.lhsContracting[0] = 0 := by simp [hlc]
  rw [h1]; rfl

/-- On its kept axis 1 the left operand's index reads the result index's row coordinate. -/
theorem lhsIdx_one_val (hln : d.lhsNonContracting = [1]) (hlb : d.lhsBatch = [])
    (j : (⟨2, ![M, N]⟩ : Shape).Idx) (k : d.contr.Idx) : (d.lhsIdx j k 1).val = (j 0).val := by
  have hb : (1 : Fin (⟨2, ![K, M]⟩ : Shape).rank) ∉ d.lhsBatch := by rw [hlb]; exact List.not_mem_nil
  have hn : (1 : Fin (⟨2, ![K, M]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

/-- On its kept axis 1 the right operand's index reads the result index's column coordinate. -/
theorem rhsIdx_one_val (hln : d.lhsNonContracting = [1]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

/-- The contraction sum at entry (p, q), re-indexed by the one contraction coordinate: the sum over k < K of
    l(k, p) · r(k, q). -/
theorem sum_eq (hlc : d.lhsContracting = [0]) (hrc : d.rhsContracting = [0])
    (hln : d.lhsNonContracting = [1]) (hrn : d.rhsNonContracting = [1])
    (hlb : d.lhsBatch = []) (hrb : d.rhsBatch = [])
    (l : (⟨2, ![K, M]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 k p) * r (ix2 k q) := by
  have hr : d.contr.rank = 1 := contr_rank d hlc
  have hs : d.contr.size ⟨0, by omega⟩ = K := contr_size d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 i p := by
    funext a
    match a with
    | ⟨0, _⟩ => exact Fin.ext ((d.lhsIdx_val_of_single hlc _ _).trans (contrEquiv1_symm_val d K hr hs i))
    | ⟨1, _⟩ => exact Fin.ext (lhsIdx_one_val d hln hlb _ _)
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

/-- Such a product accumulated into the zero splat, read at entry (p, q) at the ideal values: the sum over k < K of
    l(k, p) · r(k, q). -/
theorem matmul_zero_apply {φ₁ φ₂ : FTy} (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (l : FVec Ideal ⟨2, ![K, M]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 k p) * r (ix2 k q) :=
  (Ideal.matmul_constant_zero_apply d prec l r (ix2 p q)).trans (sum_eq d hlc hrc hln hrn hlb hrb l r p q)

end Cert.Lib.RowDot
-- ==== Proof.KPay.lean ====
/-
  The kernel body's arithmetic read at an index, at the ideal values.

  A change of float format is the identity there, a matrix product into a zero accumulator is the plain sum of
  products over the contracted index, and a lane reduction is the plain sum over the reduced axis. So, for the blocks
  x (rows of Xs), y (rows of ys) and the resident weights w1, b1, w2, b2 a grid point loads:

    * the hidden activations at (r, d) are `mlp` of row r of x (`hidden_apply`);
    * the first accumulator's update adds, at (c, d), the sum over the block's rows r of y(r, c) · h(r, d);
    * the second's adds the same sum with 1 − y(r, c) in place of y(r, c);
    * the third's adds, at (0, c), the sum over the block's rows r of y(r, c).
-/
import proofs.«123320_j45148696215988_1_alg».proof.Proof.Gen.KernelIdeal.Skeleton
import proofs.«123320_j45148696215988_1_alg».proof.Proof.PoolSums
import proofs.«123320_j45148696215988_1_alg».proof.Proof.LibPlainDot
import proofs.«123320_j45148696215988_1_alg».proof.Proof.LibRowDot
import Idealize.ShloMosaic.Lib.ValueLayout
import Idealize.ShloMosaic.Lib.Pipeline.Value
import Idealize.ShloMosaic.PureOps.Ideal.Laws

open scoped BigOperators

noncomputable section

open Idealize.ShloMosaic Idealize.ShloMosaic.ValueIdx

namespace Cert.KernelIdeal.Pay

open Cert.KernelIdeal Cert.KernelIdeal.Gen Cert.Pool

/-- A dense layer with its clamp at zero, as the body writes it: a plain product into the zero splat, a [1, N] bias
    broadcast over the rows, and the maximum with the zero splat. -/
theorem dense_apply {R K N : ℕ} {φ₁ φ₂ : FTy} (D : DotDims ⟨2, ![R, K]⟩ ⟨2, ![K, N]⟩ ⟨2, ![R, N]⟩)
    (hlc : D.lhsContracting = [1]) (hrc : D.rhsContracting = [0]) (hln : D.lhsNonContracting = [0])
    (hrn : D.rhsNonContracting = [1]) (hlb : D.lhsBatch = []) (hrb : D.rhsBatch = [])
    (x : FVec Ideal ⟨2, ![R, K]⟩ φ₁) (w : FVec Ideal ⟨2, ![K, N]⟩ φ₂) (b : FVec Ideal ⟨2, ![1, N]⟩ .f32)
    (hb : (⟨2, ![1, N]⟩ : Shape).Broadcasts ⟨2, ![R, N]⟩) (r : Fin R) (q : Fin N) :
    maximumf (F := Ideal) (addf (F := Ideal) (matmul (F := Ideal) D none x w (constant (F := Ideal) ⟨2, ![R, N]⟩ .f32 0x00000000#32))
          (broadcastTo ⟨2, ![R, N]⟩ b hb))
        (broadcast ⟨2, ![R, N]⟩ (Scalar.ofBits (F := Ideal) .f32 0x00000000#32)) (ix2 r q)
      = max ((∑ k : Fin K, x (ix2 r k) * w (ix2 k q)) + b (ix2 (0 : Fin 1) q)) 0 := by
  show max (FloatOps.matmul D none x w (constant (F := Ideal) ⟨2, ![R, N]⟩ .f32 0x00000000#32) (ix2 r q)
      + broadcastTo ⟨2, ![R, N]⟩ b hb (ix2 r q)) (Ideal.ofBits .f32 0x00000000#32) = _
  rw [Cert.Lib.PlainDot.matmul_zero_apply D hlc hrc hln hrn hlb hrb none x w r q, broadcastTo_1b_ab_apply, ofBits_zero]

/-- The hidden activations of a block's row `r`, at hidden unit `d`. -/
theorem hidden_apply (v3 : FVec Ideal S2048x768 .f32) (v5 : FVec Ideal S768x256 .bf16) (v7 : FVec Ideal S1x256 .f32)
    (v9 : FVec Ideal S256x256 .bf16) (v11 : FVec Ideal S1x256 .f32) (r : Fin 2048) (d : Fin 256) :
    k0_pay6 (F := Ideal) v3 v5 v7 v9 v11 (ix2 r d)
      = mlp (fun e => v3 (ix2 r e)) (fun e k => v5 (ix2 e k)) (fun k => v7 (ix2 (0 : Fin 1) k))
          (fun k d => v9 (ix2 k d)) (fun d => v11 (ix2 (0 : Fin 1) d)) d := by
  unfold k0_pay6 mlp
  simp only [shapeCast_self]
  refine (dense_apply dot_S2048x256_S256x256_S2048x256_1_0_0_1_n_n rfl rfl rfl rfl rfl rfl _ v9 v11
    broadcasts_S1x256_S2048x256 r d).trans ?_
  refine congrArg (fun z => max (z + v11 (ix2 (0 : Fin 1) d)) 0) (Finset.sum_congr rfl fun k _ => ?_)
  refine congrArg (· * v9 (ix2 k d)) ?_
  exact dense_apply dot_S2048x768_S768x256_S2048x256_1_0_0_1_n_n rfl rfl rfl rfl rfl rfl
    (truncf .bf16 v3 bitsLt_bf16_f32) v5 v7 broadcasts_S1x256_S2048x256 r k

/-- The complement of the block of ys. -/
theorem compl_apply (v24 : FVec Ideal S2048x64 .f32) (r : Fin 2048) (c : Fin 64) :
    k0_pay7 (F := Ideal) v24 (ix2 r c) = 1 - v24 (ix2 r c) := by
  unfold k0_pay7
  show Ideal.ofBits .f32 0x3F800000#32 - v24 (ix2 r c) = _
  rw [ofBits_one]

/-- The second accumulator's update, for any left factor `l` (the complement) and hidden block `h`. -/
theorem pool_apply (h : FVec Ideal S2048x256 .f32) (l : FVec Ideal S2048x64 .f32) (acc : FVec Ideal S64x256 .f32)
    (c : Fin 64) (d : Fin 256) :
    k0_pay1 (F := Ideal) h l acc (ix2 c d) = acc (ix2 c d) + ∑ r : Fin 2048, l (ix2 r c) * h (ix2 r d) := by
  unfold k0_pay1
  simp only [shapeCast_self]
  show acc (ix2 c d) + FloatOps.matmul dot_S2048x64_S2048x256_S64x256_0_0_1_1_n_n none l h
    (constant (F := Ideal) S64x256 .f32 0x00000000#32) (ix2 c d) = _
  rw [Cert.Lib.RowDot.matmul_zero_apply dot_S2048x64_S2048x256_S64x256_0_0_1_1_n_n rfl rfl rfl rfl rfl rfl none l h c d]

/-- The first accumulator's update: the block of ys itself is the left factor, the hidden block is formed in place. -/
theorem pool_pos_apply (v3 : FVec Ideal S2048x768 .f32) (v5 : FVec Ideal S768x256 .bf16) (v7 : FVec Ideal S1x256 .f32)
    (v9 : FVec Ideal S256x256 .bf16) (v11 : FVec Ideal S1x256 .f32) (v24 : FVec Ideal S2048x64 .f32)
    (acc : FVec Ideal S64x256 .f32) (c : Fin 64) (d : Fin 256) :
    k0_pay8 (F := Ideal) v3 v5 v7 v9 v11 v24 acc (ix2 c d)
      = acc (ix2 c d) + ∑ r : Fin 2048, v24 (ix2 r c) * k0_pay6 (F := Ideal) v3 v5 v7 v9 v11 (ix2 r d) := by
  unfold k0_pay8
  simp only [shapeCast_self]
  show acc (ix2 c d) + FloatOps.matmul dot_S2048x64_S2048x256_S64x256_0_0_1_1_n_n none v24 (k0_pay6 (F := Ideal) v3 v5 v7 v9 v11)
    (constant (F := Ideal) S64x256 .f32 0x00000000#32) (ix2 c d) = _
  rw [Cert.Lib.RowDot.matmul_zero_apply dot_S2048x64_S2048x256_S64x256_0_0_1_1_n_n rfl rfl rfl rfl rfl rfl none v24 _ c d]

/-- The third accumulator's update: the column sums of the block of ys. -/
theorem colsum_apply (v24 : FVec Ideal S2048x64 .f32) (acc : FVec Ideal S1x64 .f32) (c : Fin 64) :
    k0_pay2 (F := Ideal) v24 acc (ix2 (0 : Fin 1) c) = acc (ix2 (0 : Fin 1) c) + ∑ r : Fin 2048, v24 (ix2 r c) := by
  unfold k0_pay2
  simp only [shapeCast_self]
  show acc (ix2 (0 : Fin 1) c) + shapeCast S1x64 (multiReduction .add [0] S64 v24 0x00000000#32 reduces_S2048x64_S64 (.inl rfl) rfl)
    shapeCasts_S64_S1x64 (ix2 (0 : Fin 1) c) = _
  rw [shapeCast_a_1a_apply]
  refine congrArg (acc (ix2 (0 : Fin 1) c) + ·)
    ((Ideal.multiReduction_add_single v24 0x00000000#32 reduces_S2048x64_S64 (.inl rfl) rfl (ix1 c)).trans ?_)
  refine Finset.sum_congr rfl fun k _ => congrArg v24 (funext fun a => Fin.ext ?_)
  match a with
  | ⟨0, _⟩ => rfl
  | ⟨1, _⟩ => rfl

/-- The zero blocks the reset stores. -/
theorem zero6_apply (j : S64x256.Idx) : k0_pay3 (F := Ideal) j = 0 := ofBits_zero
theorem zero7_apply (j : S64x256.Idx) : k0_pay4 (F := Ideal) j = 0 := ofBits_zero
theorem zero8_apply (j : S1x64.Idx) : k0_pay5 (F := Ideal) j = 0 := ofBits_zero

end Cert.KernelIdeal.Pay

end
-- ==== Proof.KAcc.lean ====
/-
  What the three accumulators hold after each grid point, and so what the region leaves in its three result arrays.

  Grid point t works on the t-th block of 2048 rows. Write y_t for its block of ys and h_t for the hidden activations
  of its block of Xs. The point adds y_tᵀ·h_t to the first accumulator, (1 − y_t)ᵀ·h_t to the second and the column
  sums of y_t to the third; the first point adds to zero. By induction on the point the accumulators after point n hold
  the sums of these contributions over the points 0 … n (`outs_eq`). The accumulators' blocks never move and are
  written back once, after the last point, so each result array ends holding the sum over all 32 points (`final6`,
  `final7`, `final8`).
-/
import proofs.«123320_j45148696215988_1_alg».proof.Proof.KPieces
import proofs.«123320_j45148696215988_1_alg».proof.Proof.KPay

open scoped BigOperators

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Pool

variable (m : (ℓ : Loc nD τ sig) → Buf (Elt Ideal) ℓ)

/-! ## The blocks a grid point loads, by their literal types -/

abbrev xblk (c : Dev nD) (t : Fin cfg0.N) : FVec Ideal S2048x768 .f32 := iblk m c 0 t
abbrev yblk (c : Dev nD) (t : Fin cfg0.N) : FVec Ideal S2048x64 .f32 := iblk m c 1 t
abbrev w1blk (c : Dev nD) (t : Fin cfg0.N) : FVec Ideal S768x256 .bf16 := iblk m c 2 t
abbrev b1blk (c : Dev nD) (t : Fin cfg0.N) : FVec Ideal S1x256 .f32 := iblk m c 3 t
abbrev w2blk (c : Dev nD) (t : Fin cfg0.N) : FVec Ideal S256x256 .bf16 := iblk m c 4 t
abbrev b2blk (c : Dev nD) (t : Fin cfg0.N) : FVec Ideal S1x256 .f32 := iblk m c 5 t

/-- The hidden activations of point `t`'s block of rows. -/
def hid (c : Dev nD) (t : Fin cfg0.N) : FVec Ideal S2048x256 .f32 :=
  k0_pay6 (F := Ideal) (xblk m c t) (w1blk m c t) (b1blk m c t) (w2blk m c t) (b2blk m c t)

/-! ## One point's contribution to each accumulator (zero past the grid) -/

def gpos (c : Dev nD) (t : ℕ) (j : S64x256.Idx) : EReal :=
  if h : t < cfg0.N then ∑ r : Fin 2048, yblk m c ⟨t, h⟩ (ix2 r (j 0)) * hid m c ⟨t, h⟩ (ix2 r (j 1)) else 0

def gneg (c : Dev nD) (t : ℕ) (j : S64x256.Idx) : EReal :=
  if h : t < cfg0.N then ∑ r : Fin 2048, (1 - yblk m c ⟨t, h⟩ (ix2 r (j 0))) * hid m c ⟨t, h⟩ (ix2 r (j 1)) else 0

def gcol (c : Dev nD) (t : ℕ) (j : S1x64.Idx) : EReal :=
  if h : t < cfg0.N then ∑ r : Fin 2048, yblk m c ⟨t, h⟩ (ix2 r (j 1)) else 0

/-- The accumulators after point `n`: the contributions of the points `0 … n`. -/
def acc6 (c : Dev nD) (n : ℕ) : FVec Ideal S64x256 .f32 := fun j => ∑ t ∈ Finset.range (n + 1), gpos m c t j
def acc7 (c : Dev nD) (n : ℕ) : FVec Ideal S64x256 .f32 := fun j => ∑ t ∈ Finset.range (n + 1), gneg m c t j
def acc8 (c : Dev nD) (n : ℕ) : FVec Ideal S1x64 .f32 := fun j => ∑ t ∈ Finset.range (n + 1), gcol m c t j

/-! ## The first point adds to zero -/

theorem first6 (c : Dev nD) (h : 0 < cfg0.N) :
    k0_pay8 (F := Ideal) (xblk m c ⟨0, h⟩) (w1blk m c ⟨0, h⟩) (b1blk m c ⟨0, h⟩) (w2blk m c ⟨0, h⟩) (b2blk m c ⟨0, h⟩) (yblk m c ⟨0, h⟩) (k0_pay3 (F := Ideal)) = acc6 m c 0 := by
  funext j
  obtain ⟨a, b, rfl⟩ : ∃ (a : Fin 64) (b : Fin 256), j = ix2 a b := ⟨j 0, j 1, eq_ix2 j⟩
  rw [Pay.pool_pos_apply, Pay.zero6_apply, zero_add]
  unfold acc6
  rw [Finset.sum_range_one]
  unfold gpos
  rw [dif_pos h]
  rfl

theorem first7 (c : Dev nD) (h : 0 < cfg0.N) :
    k0_pay1 (F := Ideal) (k0_pay6 (F := Ideal) (xblk m c ⟨0, h⟩) (w1blk m c ⟨0, h⟩) (b1blk m c ⟨0, h⟩) (w2blk m c ⟨0, h⟩) (b2blk m c ⟨0, h⟩)) (k0_pay7 (F := Ideal) (yblk m c ⟨0, h⟩)) (k0_pay4 (F := Ideal)) = acc7 m c 0 := by
  funext j
  obtain ⟨a, b, rfl⟩ : ∃ (a : Fin 64) (b : Fin 256), j = ix2 a b := ⟨j 0, j 1, eq_ix2 j⟩
  rw [Pay.pool_apply, Pay.zero7_apply, zero_add]
  unfold acc7
  rw [Finset.sum_range_one]
  unfold gneg
  rw [dif_pos h]
  exact Finset.sum_congr rfl fun r _ => by rw [Pay.compl_apply]; rfl

theorem first8 (c : Dev nD) (h : 0 < cfg0.N) :
    k0_pay2 (F := Ideal) (yblk m c ⟨0, h⟩) (k0_pay5 (F := Ideal)) = acc8 m c 0 := by
  funext j
  obtain ⟨a, b, rfl⟩ : ∃ (a : Fin 1) (b : Fin 64), j = ix2 a b := ⟨j 0, j 1, eq_ix2 j⟩
  obtain rfl : a = 0 := Subsingleton.elim _ _
  rw [Pay.colsum_apply, Pay.zero8_apply, zero_add]
  unfold acc8
  rw [Finset.sum_range_one]
  unfold gcol
  rw [dif_pos h]

/-! ## Every later point adds to what the point before left -/

theorem step6 (c : Dev nD) (n : ℕ) (h : n + 1 < cfg0.N) :
    k0_pay8 (F := Ideal) (xblk m c ⟨n + 1, h⟩) (w1blk m c ⟨n + 1, h⟩) (b1blk m c ⟨n + 1, h⟩) (w2blk m c ⟨n + 1, h⟩) (b2blk m c ⟨n + 1, h⟩) (yblk m c ⟨n + 1, h⟩) (acc6 m c n) = acc6 m c (n + 1) := by
  funext j
  obtain ⟨a, b, rfl⟩ : ∃ (a : Fin 64) (b : Fin 256), j = ix2 a b := ⟨j 0, j 1, eq_ix2 j⟩
  rw [Pay.pool_pos_apply]
  unfold acc6
  rw [Finset.sum_range_succ _ (n + 1)]
  congr 1
  unfold gpos
  rw [dif_pos h]
  rfl

theorem step7 (c : Dev nD) (n : ℕ) (h : n + 1 < cfg0.N) :
    k0_pay1 (F := Ideal) (k0_pay6 (F := Ideal) (xblk m c ⟨n + 1, h⟩) (w1blk m c ⟨n + 1, h⟩) (b1blk m c ⟨n + 1, h⟩) (w2blk m c ⟨n + 1, h⟩) (b2blk m c ⟨n + 1, h⟩)) (k0_pay7 (F := Ideal) (yblk m c ⟨n + 1, h⟩)) (acc7 m c n) = acc7 m c (n + 1) := by
  funext j
  obtain ⟨a, b, rfl⟩ : ∃ (a : Fin 64) (b : Fin 256), j = ix2 a b := ⟨j 0, j 1, eq_ix2 j⟩
  rw [Pay.pool_apply]
  unfold acc7
  rw [Finset.sum_range_succ _ (n + 1)]
  congr 1
  unfold gneg
  rw [dif_pos h]
  exact Finset.sum_congr rfl fun r _ => by rw [Pay.compl_apply]; rfl

theorem step8 (c : Dev nD) (n : ℕ) (h : n + 1 < cfg0.N) :
    k0_pay2 (F := Ideal) (yblk m c ⟨n + 1, h⟩) (acc8 m c n) = acc8 m c (n + 1) := by
  funext j
  obtain ⟨a, b, rfl⟩ : ∃ (a : Fin 1) (b : Fin 64), j = ix2 a b := ⟨j 0, j 1, eq_ix2 j⟩
  obtain rfl : a = 0 := Subsingleton.elim _ _
  rw [Pay.colsum_apply]
  unfold acc8
  rw [Finset.sum_range_succ _ (n + 1)]
  congr 1
  unfold gcol
  rw [dif_pos h]

/-! ## The accumulators after every point -/

/-- The point before point `n + 1` is point `n`. -/
theorem prev_eq (c : Dev nD) (n : ℕ) (h : n + 1 < cfg0.N) :
    outsAt0 m c ((⟨n + 1, h⟩ : Fin cfg0.N).val - 1) (Nat.lt_of_le_of_lt (Nat.sub_le _ _) (⟨n + 1, h⟩ : Fin cfg0.N).isLt)
      = outsAt0 m c n (Nat.lt_of_succ_lt h) := rfl

theorem outs_eq (c : Dev nD) : ∀ (n : ℕ) (h : n < cfg0.N), outsAt0 m c n h = (acc6 m c n, acc7 m c n, acc8 m c n)
  | 0, h => by
    refine (outsAt0_A m c ⟨0, h⟩ rfl).trans ?_
    refine congr (congrArg Prod.mk ?_) (congr (congrArg Prod.mk ?_) ?_)
    · exact (Pieces.out_A_6 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) _ (iblk m c 0 ⟨0, h⟩) (iblk m c 1 ⟨0, h⟩) (iblk m c 2 ⟨0, h⟩) (iblk m c 3 ⟨0, h⟩) (iblk m c 4 ⟨0, h⟩) (iblk m c 5 ⟨0, h⟩)).trans (first6 m c h)
    · exact (Pieces.out_A_7 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) _ (iblk m c 0 ⟨0, h⟩) (iblk m c 1 ⟨0, h⟩) (iblk m c 2 ⟨0, h⟩) (iblk m c 3 ⟨0, h⟩) (iblk m c 4 ⟨0, h⟩) (iblk m c 5 ⟨0, h⟩)).trans (first7 m c h)
    · exact (Pieces.out_A_8 c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) (ms0_6 ⟨0, h⟩) (hs0_6 ⟨0, h⟩) (ms0_7 ⟨0, h⟩) (hs0_7 ⟨0, h⟩) (ms0_8 ⟨0, h⟩) (hs0_8 ⟨0, h⟩) _ (iblk m c 0 ⟨0, h⟩) (iblk m c 1 ⟨0, h⟩) (iblk m c 2 ⟨0, h⟩) (iblk m c 3 ⟨0, h⟩) (iblk m c 4 ⟨0, h⟩) (iblk m c 5 ⟨0, h⟩)).trans (first8 m c h)
  | n + 1, h => by
    have hN : cfg0.N = 32 := N_0
    have hB : ¬(⟨n + 1, h⟩ : Fin cfg0.N).val % 32 = 0 := by dsimp only; omega
    refine (outsAt0_B m c ⟨n + 1, h⟩ hB).trans ?_
    rw [prev_eq m c n h, outs_eq c n (Nat.lt_of_succ_lt h)]
    refine congr (congrArg Prod.mk ?_) (congr (congrArg Prod.mk ?_) ?_)
    · exact (Pieces.out_B_6 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (acc6 m c n) (acc7 m c n) (acc8 m c n)).trans (step6 m c n h)
    · exact (Pieces.out_B_7 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (acc6 m c n) (acc7 m c n) (acc8 m c n)).trans (step7 m c n h)
    · exact (Pieces.out_B_8 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) _ (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (acc6 m c n) (acc7 m c n) (acc8 m c n)).trans (step8 m c n h)

end Cert.KernelIdeal.Acc

end
-- ==== Proof.Tail.lean ====
/-
  What both programs do with the pooled sums: the shared end of the computation, as three functions.

  From the two pooled sums A = ysᵀ·H and B = (1 − ys)ᵀ·H and the two column sums s = Σ ys and sn = Σ (1 − ys), both
  programs clamp the column sums below at 1e-6, divide A and B by them row by row, concatenate the quotients, and run
  the small hypernetwork (a dense layer, a clamp at zero, a dense layer) to the parameter rows `params`. From these
  they read the two results: `outW` (the gated weight update added to W0) and `outB` (the bias update added to b0).
  The two programs differ only in how A, B, s and sn are formed; from there on they apply these same operations, so
  the certificate never looks inside them.
-/
import proofs.«123320_j45148696215988_1_alg».proof.Proof.Gen.KernelIdeal

noncomputable section

open Idealize.ShloMosaic

namespace Cert.KernelIdeal.Tail

open Cert.KernelIdeal Cert.KernelIdeal.Facts₀ Cert.KernelIdeal.Facts

variable {F : FTy → Type} [FloatOps F]

/-- The parameter rows [64, 1537] from the pooled sums and the column sums. -/
def params (A B : FVec F S64x256 .f32) (s sn : FVec F S64 .f32) (x6 : FVec F S256x512 .f32) (x7 : FVec F S256 .f32)
    (x8 : FVec F S1537x256 .f32) (x9 : FVec F S1537 .f32) : FVec F S64x1537 .f32 :=
  addf
    (Host.dotGeneral dot_S64x256_S256x1537_S64x1537_1_0_0_1_n_n none
      (maximumf
        (addf
          (Host.dotGeneral dot_S64x512_S512x256_S64x256_1_0_0_1_n_n none
            (concatenate S64x512 1
              [⟨S64x256, Host.divf A (broadcastInDim S64x256 ![0, 1] bcast_S64x1_S64x256_0_1
                  (broadcastInDim S64x1 ![0] bcast_S64_S64x1_0
                    (maximumf s (broadcastInDim S64 ![] bcast_S_S64 (constant S_ .f32 0x358637BD#32)))))⟩,
               ⟨S64x256, Host.divf B (broadcastInDim S64x256 ![0, 1] bcast_S64x1_S64x256_0_1
                  (broadcastInDim S64x1 ![0] bcast_S64_S64x1_0
                    (maximumf sn (broadcastInDim S64 ![] bcast_S_S64 (constant S_ .f32 0x358637BD#32)))))⟩]
              concatenates_S64x256_S64x256_S64x512_d1)
            (transpose S512x256 [1, 0] x6 transposes_S256x512_S512x256_1_0))
          (broadcastInDim S64x256 ![0, 1] bcast_S1x256_S64x256_0_1 (broadcastInDim S1x256 ![1] bcast_S256_S1x256_1 x7)))
        (broadcastInDim S64x256 ![] bcast_S_S64x256 (constant S_ .f32 0x00000000#32)))
      (transpose S256x1537 [1, 0] x8 transposes_S1537x256_S256x1537_1_0))
    (broadcastInDim S64x1537 ![0, 1] bcast_S1x1537_S64x1537_0_1 (broadcastInDim S1x1537 ![1] bcast_S1537_S1x1537_1 x9))

/-- The first result [64, 768]: W0 plus the sigmoid of the gate columns times the update columns. -/
def outW (p : FVec F S64x1537 .f32) (x10 : FVec F S768 .f32) : FVec F S64x768 .f32 :=
  addf
    (broadcastInDim S64x768 ![0, 1] bcast_S1x768_S64x768_0_1 (broadcastInDim S1x768 ![1] bcast_S768_S1x768_1 x10))
    (mulf
      (Host.divf (broadcastInDim S64x768 ![] bcast_S_S64x768 (constant S_ .f32 0x3F800000#32))
        (addf (broadcastInDim S64x768 ![] bcast_S_S64x768 (constant S_ .f32 0x3F800000#32))
          (Host.exp (Host.negf (extractStridedSlice S64x768 ![0, 769] p slices_S64x1537_S64x768_0_769)))))
      (extractStridedSlice S64x768 ![0, 0] p slices_S64x1537_S64x768_0_0))

/-- The second result [64]: b0 plus the bias column. -/
def outB (p : FVec F S64x1537 .f32) (x11 : FVec F S1 .f32) : FVec F S64 .f32 :=
  addf (broadcastInDim S64 ![] bcast_S_S64 (shapeCast S_ x11 shapeCasts_S1_S_))
    (shapeCast S64 (extractStridedSlice S64x1 ![0, 768] p slices_S64x1537_S64x1_0_768) shapeCasts_S64x1_S64)

end Cert.KernelIdeal.Tail

end
-- ==== Proof.KRun.lean ====
/-
  The idealized kernel's run, read: what its two results hold at the end.

  The region's three result arrays end at the sums of the 32 points' contributions (the accumulators after the last
  point, written back once: `final6`, `final7`, `final8`). The operations after the region take the column sums s out
  of the third array, form 65536 − s, and from there on are the shared end of the computation (`Tail`): so the first
  result is `outW` and the second `outB` of the parameter rows formed from those sums (`run`).
-/
import proofs.«123320_j45148696215988_1_alg».proof.Proof.KAcc
import proofs.«123320_j45148696215988_1_alg».proof.Proof.Tail
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Fin

open Cert.KernelIdeal Cert.KernelIdeal.Gen Cert.KernelIdeal.Acc Idealize.ShloMosaic.StableHlo

variable (m : (ℓ : Loc nD τ sig) → Buf (Elt Ideal) ℓ) (ρ : Dev nD → PrngReg)

/-- The last grid point, the one write-back. -/
abbrev tLast : Fin cfg0.N := ⟨31, by rw [show cfg0.N = 32 from N_0]; decide⟩

/-- The three result arrays: the accumulators after the last point. -/
abbrev res6 (c : Dev nD) : Buf (Elt Ideal) ((c : Thread nD τ).loc main_v6_0) := acc6 m c 31
abbrev res7 (c : Dev nD) : Buf (Elt Ideal) ((c : Thread nD τ).loc main_v6_1) := acc7 m c 31
abbrev res8 (c : Dev nD) : Buf (Elt Ideal) ((c : Thread nD τ).loc main_v6_2) := acc8 m c 31

/-! ## Each result array: its one block, written back once, is the whole array -/

theorem flushed6 (c : Dev nD) (t : Fin cfg0.N) (hf : (cfg0.win 6).flush t = true) :
    (dats m 0 c).flushed 6 t = ((cfg0.win 6).blk t).view.read (Elt Ideal) (res6 m c) := by
  have hN : cfg0.N = 32 := N_0
  have h31 : t.val = 31 := by have := (flush0_6 t).mp hf; have := t.isLt; omega
  obtain rfl : t = tLast := Fin.ext h31
  show (cfg0.win 6).cut (grid0.coords tLast) ((dats m 0 c).after 6 tLast) = _
  rw [after0_6, outs_eq]
  have hz' : (fun a => win0_6.index tLast a * main_v6_0.ty.shape.size a) = fun _ => 0 :=
    funext fun a => by fin_cases a <;> decide
  exact (Memref.read_access_unit_zero (Elt Ideal) main_v6_0 hz' (fun a => by rw [congrFun hz' a]; simp) (res6 m c)).symm

theorem final6 (c : Dev nD) : (dats m 0 c).arrAt 6 cfg0.N = res6 m c :=
  (dats m 0 c).arrAt_eq_of_cover 6 (res6 m c) (flushed6 m c) fun i =>
    ⟨tLast, (flush0_6 tLast).mpr rfl, by
      show i ∈ ((View.whole main_v6_0).slice (win0_6.rect tLast)).set
      rw [View.set_slice_whole, Rect.mem_set_unit]
      intro a
      have h0 : (i 0 : Nat) < 64 := (i 0).isLt
      have h1 : (i 1 : Nat) < 256 := (i 1).isLt
      match a with
      | ⟨0, _⟩ =>
        show win0_6.index tLast 0 * win0_6.size 0 ≤ (i 0 : Nat)
          ∧ (i 0 : Nat) < win0_6.index tLast 0 * win0_6.size 0 + win0_6.xsize (grid0.coords tLast) 0
        rw [show win0_6.index tLast 0 * win0_6.size 0 = 0 from by decide +kernel,
          show win0_6.xsize (grid0.coords tLast) 0 = 64 from by decide +kernel]
        omega
      | ⟨1, _⟩ =>
        show win0_6.index tLast 1 * win0_6.size 1 ≤ (i 1 : Nat)
          ∧ (i 1 : Nat) < win0_6.index tLast 1 * win0_6.size 1 + win0_6.xsize (grid0.coords tLast) 1
        rw [show win0_6.index tLast 1 * win0_6.size 1 = 0 from by decide +kernel,
          show win0_6.xsize (grid0.coords tLast) 1 = 256 from by decide +kernel]
        omega⟩

theorem held6 (c : Dev nD) : (Pipeline.withArrays (cfgs 0).spec c (V0 m c) (fun w => (dats m 0 c).arrAt w (cfgs 0).N) (Proc.devRef .tc main_v6_0)) = res6 m c :=
  (Pipeline.withArrays_arr spec0 launch0.win.arr_inj c _ _ 6).trans (final6 m c)

theorem flushed7 (c : Dev nD) (t : Fin cfg0.N) (hf : (cfg0.win 7).flush t = true) :
    (dats m 0 c).flushed 7 t = ((cfg0.win 7).blk t).view.read (Elt Ideal) (res7 m c) := by
  have hN : cfg0.N = 32 := N_0
  have h31 : t.val = 31 := by have := (flush0_7 t).mp hf; have := t.isLt; omega
  obtain rfl : t = tLast := Fin.ext h31
  show (cfg0.win 7).cut (grid0.coords tLast) ((dats m 0 c).after 7 tLast) = _
  rw [after0_7, outs_eq]
  have hz' : (fun a => win0_7.index tLast a * main_v6_1.ty.shape.size a) = fun _ => 0 :=
    funext fun a => by fin_cases a <;> decide
  exact (Memref.read_access_unit_zero (Elt Ideal) main_v6_1 hz' (fun a => by rw [congrFun hz' a]; simp) (res7 m c)).symm

theorem final7 (c : Dev nD) : (dats m 0 c).arrAt 7 cfg0.N = res7 m c :=
  (dats m 0 c).arrAt_eq_of_cover 7 (res7 m c) (flushed7 m c) fun i =>
    ⟨tLast, (flush0_7 tLast).mpr rfl, by
      show i ∈ ((View.whole main_v6_1).slice (win0_7.rect tLast)).set
      rw [View.set_slice_whole, Rect.mem_set_unit]
      intro a
      have h0 : (i 0 : Nat) < 64 := (i 0).isLt
      have h1 : (i 1 : Nat) < 256 := (i 1).isLt
      match a with
      | ⟨0, _⟩ =>
        show win0_7.index tLast 0 * win0_7.size 0 ≤ (i 0 : Nat)
          ∧ (i 0 : Nat) < win0_7.index tLast 0 * win0_7.size 0 + win0_7.xsize (grid0.coords tLast) 0
        rw [show win0_7.index tLast 0 * win0_7.size 0 = 0 from by decide +kernel,
          show win0_7.xsize (grid0.coords tLast) 0 = 64 from by decide +kernel]
        omega
      | ⟨1, _⟩ =>
        show win0_7.index tLast 1 * win0_7.size 1 ≤ (i 1 : Nat)
          ∧ (i 1 : Nat) < win0_7.index tLast 1 * win0_7.size 1 + win0_7.xsize (grid0.coords tLast) 1
        rw [show win0_7.index tLast 1 * win0_7.size 1 = 0 from by decide +kernel,
          show win0_7.xsize (grid0.coords tLast) 1 = 256 from by decide +kernel]
        omega⟩

theorem held7 (c : Dev nD) : (Pipeline.withArrays (cfgs 0).spec c (V0 m c) (fun w => (dats m 0 c).arrAt w (cfgs 0).N) (Proc.devRef .tc main_v6_1)) = res7 m c :=
  (Pipeline.withArrays_arr spec0 launch0.win.arr_inj c _ _ 7).trans (final7 m c)

theorem flushed8 (c : Dev nD) (t : Fin cfg0.N) (hf : (cfg0.win 8).flush t = true) :
    (dats m 0 c).flushed 8 t = ((cfg0.win 8).blk t).view.read (Elt Ideal) (res8 m c) := by
  have hN : cfg0.N = 32 := N_0
  have h31 : t.val = 31 := by have := (flush0_8 t).mp hf; have := t.isLt; omega
  obtain rfl : t = tLast := Fin.ext h31
  show (cfg0.win 8).cut (grid0.coords tLast) ((dats m 0 c).after 8 tLast) = _
  rw [after0_8, outs_eq]
  have hz' : (fun a => win0_8.index tLast a * main_v6_2.ty.shape.size a) = fun _ => 0 :=
    funext fun a => by fin_cases a <;> decide
  exact (Memref.read_access_unit_zero (Elt Ideal) main_v6_2 hz' (fun a => by rw [congrFun hz' a]; simp) (res8 m c)).symm

theorem final8 (c : Dev nD) : (dats m 0 c).arrAt 8 cfg0.N = res8 m c :=
  (dats m 0 c).arrAt_eq_of_cover 8 (res8 m c) (flushed8 m c) fun i =>
    ⟨tLast, (flush0_8 tLast).mpr rfl, by
      show i ∈ ((View.whole main_v6_2).slice (win0_8.rect tLast)).set
      rw [View.set_slice_whole, Rect.mem_set_unit]
      intro a
      have h0 : (i 0 : Nat) < 1 := (i 0).isLt
      have h1 : (i 1 : Nat) < 64 := (i 1).isLt
      match a with
      | ⟨0, _⟩ =>
        show win0_8.index tLast 0 * win0_8.size 0 ≤ (i 0 : Nat)
          ∧ (i 0 : Nat) < win0_8.index tLast 0 * win0_8.size 0 + win0_8.xsize (grid0.coords tLast) 0
        rw [show win0_8.index tLast 0 * win0_8.size 0 = 0 from by decide +kernel,
          show win0_8.xsize (grid0.coords tLast) 0 = 1 from by decide +kernel]
        omega
      | ⟨1, _⟩ =>
        show win0_8.index tLast 1 * win0_8.size 1 ≤ (i 1 : Nat)
          ∧ (i 1 : Nat) < win0_8.index tLast 1 * win0_8.size 1 + win0_8.xsize (grid0.coords tLast) 1
        rw [show win0_8.index tLast 1 * win0_8.size 1 = 0 from by decide +kernel,
          show win0_8.xsize (grid0.coords tLast) 1 = 64 from by decide +kernel]
        omega⟩

theorem held8 (c : Dev nD) : (Pipeline.withArrays (cfgs 0).spec c (V0 m c) (fun w => (dats m 0 c).arrAt w (cfgs 0).N) (Proc.devRef .tc main_v6_2)) = res8 m c :=
  (Pipeline.withArrays_arr spec0 launch0.win.arr_inj c _ _ 8).trans (final8 m c)

/-! ## The arguments the operations after the region read are as launched -/

theorem held_arg6 (c : Dev nD) : (Pipeline.withArrays (cfgs 0).spec c (V0 m c) (fun w => (dats m 0 c).arrAt w (cfgs 0).N) (Proc.devRef .tc main_arg6)) = m ((c : Thread nD τ).loc main_arg6) :=
  (Pipeline.withArrays_of_ne _ c (V0 m c) _ main_arg6 (by exact (by decide : ∀ w, Pipeline.arrRef spec0 w ≠ main_arg6))).trans
    (V_main_arg6 m c)

theorem held_arg7 (c : Dev nD) : (Pipeline.withArrays (cfgs 0).spec c (V0 m c) (fun w => (dats m 0 c).arrAt w (cfgs 0).N) (Proc.devRef .tc main_arg7)) = m ((c : Thread nD τ).loc main_arg7) :=
  (Pipeline.withArrays_of_ne _ c (V0 m c) _ main_arg7 (by exact (by decide : ∀ w, Pipeline.arrRef spec0 w ≠ main_arg7))).trans
    (V_main_arg7 m c)

theorem held_arg8 (c : Dev nD) : (Pipeline.withArrays (cfgs 0).spec c (V0 m c) (fun w => (dats m 0 c).arrAt w (cfgs 0).N) (Proc.devRef .tc main_arg8)) = m ((c : Thread nD τ).loc main_arg8) :=
  (Pipeline.withArrays_of_ne _ c (V0 m c) _ main_arg8 (by exact (by decide : ∀ w, Pipeline.arrRef spec0 w ≠ main_arg8))).trans
    (V_main_arg8 m c)

theorem held_arg9 (c : Dev nD) : (Pipeline.withArrays (cfgs 0).spec c (V0 m c) (fun w => (dats m 0 c).arrAt w (cfgs 0).N) (Proc.devRef .tc main_arg9)) = m ((c : Thread nD τ).loc main_arg9) :=
  (Pipeline.withArrays_of_ne _ c (V0 m c) _ main_arg9 (by exact (by decide : ∀ w, Pipeline.arrRef spec0 w ≠ main_arg9))).trans
    (V_main_arg9 m c)

theorem held_arg10 (c : Dev nD) : (Pipeline.withArrays (cfgs 0).spec c (V0 m c) (fun w => (dats m 0 c).arrAt w (cfgs 0).N) (Proc.devRef .tc main_arg10)) = m ((c : Thread nD τ).loc main_arg10) :=
  (Pipeline.withArrays_of_ne _ c (V0 m c) _ main_arg10 (by exact (by decide : ∀ w, Pipeline.arrRef spec0 w ≠ main_arg10))).trans
    (V_main_arg10 m c)

theorem held_arg11 (c : Dev nD) : (Pipeline.withArrays (cfgs 0).spec c (V0 m c) (fun w => (dats m 0 c).arrAt w (cfgs 0).N) (Proc.devRef .tc main_arg11)) = m ((c : Thread nD τ).loc main_arg11) :=
  (Pipeline.withArrays_of_ne _ c (V0 m c) _ main_arg11 (by exact (by decide : ∀ w, Pipeline.arrRef spec0 w ≠ main_arg11))).trans
    (V_main_arg11 m c)

/-! ## The operations after the region -/

/-- The parameter rows the kernel's program forms after the region, from the three result arrays. -/
def kparams (c : Dev nD) : FVec Ideal S64x1537 .f32 :=
  (Tail.params (res6 m c) (res7 m c)
        (shapeCast S64 (res8 m c) shapeCasts_S1x64_S64)
        (subf (broadcastInDim S64 ![] bcast_S_S64 (constant S_ .f32 0x47800000#32)) (shapeCast S64 (res8 m c) shapeCasts_S1x64_S64))
        (m ((c : Thread nD τ).loc main_arg6)) (m ((c : Thread nD τ).loc main_arg7)) (m ((c : Thread nD τ).loc main_arg8)) (m ((c : Thread nD τ).loc main_arg9)))

set_option maxHeartbeats 16000000 in
set_option maxRecDepth 8192 in
theorem tail45 (c : Dev nD) :
    Pipeline.afterTail₀ cfgs (dats m) 0 (V0 m) [hostOps1, hostOps1_1, hostOps1_2] c main_v45
      = Tail.outW (F := Ideal) (Tail.params (F := Ideal) (Pipeline.withArrays (cfgs 0).spec c (V0 m c) (fun w => (dats m 0 c).arrAt w (cfgs 0).N) (Proc.devRef .tc main_v6_0)) (Pipeline.withArrays (cfgs 0).spec c (V0 m c) (fun w => (dats m 0 c).arrAt w (cfgs 0).N) (Proc.devRef .tc main_v6_1))
        (shapeCast S64 (Pipeline.withArrays (cfgs 0).spec c (V0 m c) (fun w => (dats m 0 c).arrAt w (cfgs 0).N) (Proc.devRef .tc main_v6_2)) shapeCasts_S1x64_S64)
        (subf (broadcastInDim S64 ![] bcast_S_S64 (constant S_ .f32 0x47800000#32)) (shapeCast S64 (Pipeline.withArrays (cfgs 0).spec c (V0 m c) (fun w => (dats m 0 c).arrAt w (cfgs 0).N) (Proc.devRef .tc main_v6_2)) shapeCasts_S1x64_S64))
        (Pipeline.withArrays (cfgs 0).spec c (V0 m c) (fun w => (dats m 0 c).arrAt w (cfgs 0).N) (Proc.devRef .tc main_arg6)) (Pipeline.withArrays (cfgs 0).spec c (V0 m c) (fun w => (dats m 0 c).arrAt w (cfgs 0).N) (Proc.devRef .tc main_arg7)) (Pipeline.withArrays (cfgs 0).spec c (V0 m c) (fun w => (dats m 0 c).arrAt w (cfgs 0).N) (Proc.devRef .tc main_arg8)) (Pipeline.withArrays (cfgs 0).spec c (V0 m c) (fun w => (dats m 0 c).arrAt w (cfgs 0).N) (Proc.devRef .tc main_arg9)))
          (Pipeline.withArrays (cfgs 0).spec c (V0 m c) (fun w => (dats m 0 c).arrAt w (cfgs 0).N) (Proc.devRef .tc main_arg10)) := by
  unfold Pipeline.afterTail₀
  simp only [hostOps1, hostOps1_1, hostOps1_2, List.flatten_cons, List.flatten_nil, List.append_nil, List.cons_append,
    List.nil_append]
  after_results_simp
  unfold Tail.outW Tail.params
  rfl

set_option maxHeartbeats 16000000 in
set_option maxRecDepth 8192 in
theorem tail48 (c : Dev nD) :
    Pipeline.afterTail₀ cfgs (dats m) 0 (V0 m) [hostOps1, hostOps1_1, hostOps1_2] c main_v48
      = Tail.outB (F := Ideal) (Tail.params (F := Ideal) (Pipeline.withArrays (cfgs 0).spec c (V0 m c) (fun w => (dats m 0 c).arrAt w (cfgs 0).N) (Proc.devRef .tc main_v6_0)) (Pipeline.withArrays (cfgs 0).spec c (V0 m c) (fun w => (dats m 0 c).arrAt w (cfgs 0).N) (Proc.devRef .tc main_v6_1))
        (shapeCast S64 (Pipeline.withArrays (cfgs 0).spec c (V0 m c) (fun w => (dats m 0 c).arrAt w (cfgs 0).N) (Proc.devRef .tc main_v6_2)) shapeCasts_S1x64_S64)
        (subf (broadcastInDim S64 ![] bcast_S_S64 (constant S_ .f32 0x47800000#32)) (shapeCast S64 (Pipeline.withArrays (cfgs 0).spec c (V0 m c) (fun w => (dats m 0 c).arrAt w (cfgs 0).N) (Proc.devRef .tc main_v6_2)) shapeCasts_S1x64_S64))
        (Pipeline.withArrays (cfgs 0).spec c (V0 m c) (fun w => (dats m 0 c).arrAt w (cfgs 0).N) (Proc.devRef .tc main_arg6)) (Pipeline.withArrays (cfgs 0).spec c (V0 m c) (fun w => (dats m 0 c).arrAt w (cfgs 0).N) (Proc.devRef .tc main_arg7)) (Pipeline.withArrays (cfgs 0).spec c (V0 m c) (fun w => (dats m 0 c).arrAt w (cfgs 0).N) (Proc.devRef .tc main_arg8)) (Pipeline.withArrays (cfgs 0).spec c (V0 m c) (fun w => (dats m 0 c).arrAt w (cfgs 0).N) (Proc.devRef .tc main_arg9)))
          (Pipeline.withArrays (cfgs 0).spec c (V0 m c) (fun w => (dats m 0 c).arrAt w (cfgs 0).N) (Proc.devRef .tc main_arg11)) := by
  unfold Pipeline.afterTail₀
  simp only [hostOps1, hostOps1_1, hostOps1_2, List.flatten_cons, List.flatten_nil, List.append_nil, List.cons_append,
    List.nil_append]
  after_results_simp
  unfold Tail.outB Tail.params
  rfl

theorem out45 (c : Dev nD) :
    Pipeline.afterTail₀ cfgs (dats m) 0 (V0 m) [hostOps1, hostOps1_1, hostOps1_2] c main_v45
      = Tail.outW (kparams m c) (m ((c : Thread nD τ).loc main_arg10)) := by
  rw [tail45, held6, held7, held8, held_arg6, held_arg7, held_arg8, held_arg9, held_arg10]
  rfl

theorem out48 (c : Dev nD) :
    Pipeline.afterTail₀ cfgs (dats m) 0 (V0 m) [hostOps1, hostOps1_1, hostOps1_2] c main_v48
      = Tail.outB (kparams m c) (m ((c : Thread nD τ).loc main_arg11)) := by
  rw [tail48, held6, held7, held8, held_arg6, held_arg7, held_arg8, held_arg9, held_arg11]
  rfl

/-! ## The run -/

theorem run : θ_run defs (onTc (τ := τ) (main (F := Ideal))) ⟨m, fun _ => 0, ρ⟩ fun r => ∀ c : Dev nD,
      r.2.mem ((c.tc : Thread nD τ).loc main_v45) = Tail.outW (kparams m c) (m ((c : Thread nD τ).loc main_arg10))
      ∧ r.2.mem ((c.tc : Thread nD τ).loc main_v48) = Tail.outB (kparams m c) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    ⟨((h c).2 main_v45 (Pipeline.mem_restRefs_of main_v45 (by decide) (by decide))).trans (out45 m c),
      ((h c).2 main_v48 (Pipeline.mem_restRefs_of main_v48 (by decide) (by decide))).trans (out48 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩)
    (run_main m ρ)

end Cert.KernelIdeal.Fin

end
-- ==== Proof.KWhole.lean ====
/-
  The region's three result arrays as functions of the whole argument arrays.

  Point t's block of Xs is rows 2048·t … 2048·t + 2047 of Xs, its block of ys the same rows of ys; the weights' blocks
  are the whole arrays the operations before the region prepared — the transposes of the two weight matrices (their
  change of float format is the identity at the ideal values) and the two biases reshaped to one row. So a point's
  hidden activations are `hrow` of its rows, and the sums of the 32 points' contributions are the sums over all 65536
  rows (`Pool.sum_tiles`): `poolPos`, `poolNeg` and the column sums `colSum`.
-/
import proofs.«123320_j45148696215988_1_alg».proof.Proof.KAcc
import Idealize.ShloMosaic.Lib.StableHlo.Run
import Idealize.ShloMosaic.Lib.ValueLayout

open scoped BigOperators

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Acc Cert.Pool Idealize.ShloMosaic.StableHlo

variable (m : (ℓ : Loc nD τ sig) → Buf (Elt Ideal) ℓ)

/-! ## The argument arrays, and the weights as the region finds them -/

abbrev X (c : Dev nD) : FVec Ideal S65536x768 .f32 := m ((c : Thread nD τ).loc main_arg0)
abbrev Y (c : Dev nD) : FVec Ideal S65536x64 .f32 := m ((c : Thread nD τ).loc main_arg1)
abbrev W1t (c : Dev nD) : FVec Ideal S768x256 .f32 :=
  transpose S768x256 [1, 0] (m ((c : Thread nD τ).loc main_arg2)) transposes_S256x768_S768x256_1_0
abbrev B1 (c : Dev nD) : FVec Ideal S256 .f32 := m ((c : Thread nD τ).loc main_arg3)
abbrev W2t (c : Dev nD) : FVec Ideal S256x256 .f32 :=
  transpose S256x256 [1, 0] (m ((c : Thread nD τ).loc main_arg4)) transposes_S256x256_S256x256_1_0
abbrev B2 (c : Dev nD) : FVec Ideal S256 .f32 := m ((c : Thread nD τ).loc main_arg5)

/-- A grid point as a tile number. -/
abbrev tile (t : Fin cfg0.N) : Fin 32 := ⟨t.val, lt_of_lt_of_eq t.isLt N_0⟩

/-! ## What the operations before the region leave in the four arrays they prepare -/

theorem V_v1 (c : Dev nD) : (V m c main_v1 : FVec Ideal S768x256 .bf16) = truncf .bf16 (W1t m c) bitsLt_bf16_f32 := by
  show StableHlo.after hostOps0 (fun b => m (c, b)) (Proc.devRef .tc main_v1) = _
  after_results

theorem V_v3 (c : Dev nD) : (V m c main_v3 : FVec Ideal S256x256 .bf16) = truncf .bf16 (W2t m c) bitsLt_bf16_f32 := by
  show StableHlo.after hostOps0 (fun b => m (c, b)) (Proc.devRef .tc main_v3) = _
  after_results

theorem V_v4 (c : Dev nD) : (V m c main_v4 : FVec Ideal S1x256 .f32) = shapeCast S1x256 (B1 m c) shapeCasts_S256_S1x256 := by
  show StableHlo.after hostOps0 (fun b => m (c, b)) (Proc.devRef .tc main_v4) = _
  after_results
  rfl

theorem V_v5 (c : Dev nD) : (V m c main_v5 : FVec Ideal S1x256 .f32) = shapeCast S1x256 (B2 m c) shapeCasts_S256_S1x256 := by
  show StableHlo.after hostOps0 (fun b => m (c, b)) (Proc.devRef .tc main_v5) = _
  after_results
  rfl

/-! ## The windows' block indices over the grid -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)

/-! ## The blocks a point loads, read in the whole arrays -/

theorem xblk_apply (c : Dev nD) (t : Fin cfg0.N) (r : Fin 2048) (e : Fin 768) :
    xblk m c t (ix2 r e) = X m c (ix2 (rowOf (tile t) r) e) := by
  have hi := idx0 t
  show iblk m c 0 t (ix2 r e) = _
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 2048 + 1 * r.val = 2048 * t.val + r.val; rw [hi.1]; omega
  | ⟨1, _⟩ => show win0_0.index t 1 * 768 + 1 * e.val = e.val; rw [hi.2]; omega

theorem yblk_apply (c : Dev nD) (t : Fin cfg0.N) (r : Fin 2048) (q : Fin 64) :
    yblk m c t (ix2 r q) = Y m c (ix2 (rowOf (tile t) r) q) := by
  have hi := idx1 t
  show iblk m c 1 t (ix2 r q) = _
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 2048 + 1 * r.val = 2048 * t.val + r.val; rw [hi.1]; omega
  | ⟨1, _⟩ => show win0_1.index t 1 * 64 + 1 * q.val = q.val; rw [hi.2]; omega

theorem w1blk_apply (c : Dev nD) (t : Fin cfg0.N) (e : Fin 768) (k : Fin 256) :
    w1blk m c t (ix2 e k) = W1t m c (ix2 e k) := by
  have hi := idx2 t
  show iblk m c 2 t (ix2 e k) = _
  unfold iblk
  rw [View.read_apply]
  show V m c main_v1 _ = _
  rw [V_v1]
  show W1t m c _ = W1t m c _
  refine congrArg (W1t m c) (funext fun a => Fin.ext ?_)
  match a with
  | ⟨0, _⟩ => show win0_2.index t 0 * 768 + 1 * e.val = e.val; rw [hi.1]; omega
  | ⟨1, _⟩ => show win0_2.index t 1 * 256 + 1 * k.val = k.val; rw [hi.2]; omega

theorem w2blk_apply (c : Dev nD) (t : Fin cfg0.N) (k : Fin 256) (d : Fin 256) :
    w2blk m c t (ix2 k d) = W2t m c (ix2 k d) := by
  have hi := idx4 t
  show iblk m c 4 t (ix2 k d) = _
  unfold iblk
  rw [View.read_apply]
  show V m c main_v3 _ = _
  rw [V_v3]
  show W2t m c _ = W2t m c _
  refine congrArg (W2t m c) (funext fun a => Fin.ext ?_)
  match a with
  | ⟨0, _⟩ => show win0_4.index t 0 * 256 + 1 * k.val = k.val; rw [hi.1]; omega
  | ⟨1, _⟩ => show win0_4.index t 1 * 256 + 1 * d.val = d.val; rw [hi.2]; omega

theorem b1blk_apply (c : Dev nD) (t : Fin cfg0.N) (k : Fin 256) :
    b1blk m c t (ix2 (0 : Fin 1) k) = B1 m c (ix1 k) := by
  have hi := idx3 t
  show iblk m c 3 t (ix2 (0 : Fin 1) k) = _
  unfold iblk
  rw [View.read_apply]
  show V m c main_v4 _ = _
  rw [V_v4]
  refine Eq.trans (congrArg (shapeCast S1x256 (B1 m c) shapeCasts_S256_S1x256) (funext fun a => Fin.ext ?_))
    (shapeCast_a_1a_apply (B1 m c) shapeCasts_S256_S1x256 (0 : Fin 1) k)
  match a with
  | ⟨0, _⟩ => show win0_3.index t 0 * 1 + 1 * 0 = 0; rw [hi.1]
  | ⟨1, _⟩ => show win0_3.index t 1 * 256 + 1 * k.val = k.val; rw [hi.2]; omega

theorem b2blk_apply (c : Dev nD) (t : Fin cfg0.N) (d : Fin 256) :
    b2blk m c t (ix2 (0 : Fin 1) d) = B2 m c (ix1 d) := by
  have hi := idx5 t
  show iblk m c 5 t (ix2 (0 : Fin 1) d) = _
  unfold iblk
  rw [View.read_apply]
  show V m c main_v5 _ = _
  rw [V_v5]
  refine Eq.trans (congrArg (shapeCast S1x256 (B2 m c) shapeCasts_S256_S1x256) (funext fun a => Fin.ext ?_))
    (shapeCast_a_1a_apply (B2 m c) shapeCasts_S256_S1x256 (0 : Fin 1) d)
  match a with
  | ⟨0, _⟩ => show win0_5.index t 0 * 1 + 1 * 0 = 0; rw [hi.1]
  | ⟨1, _⟩ => show win0_5.index t 1 * 256 + 1 * d.val = d.val; rw [hi.2]; omega

/-- A point's hidden activations are those of its rows of Xs. -/
theorem hid_apply (c : Dev nD) (t : Fin cfg0.N) (r : Fin 2048) (d : Fin 256) :
    hid m c t (ix2 r d) = hrow (X m c) (W1t m c) (B1 m c) (W2t m c) (B2 m c) (rowOf (tile t) r) d := by
  unfold hid hrow
  rw [Pay.hidden_apply]
  have e1 : (fun e => xblk m c t (ix2 r e)) = fun e => X m c (ix2 (rowOf (tile t) r) e) :=
    funext fun e => xblk_apply m c t r e
  have e2 : (fun e k => w1blk m c t (ix2 e k)) = fun e k => W1t m c (ix2 e k) :=
    funext fun e => funext fun k => w1blk_apply m c t e k
  have e3 : (fun k => b1blk m c t (ix2 (0 : Fin 1) k)) = fun k => B1 m c (ix1 k) := funext fun k => b1blk_apply m c t k
  have e4 : (fun k d => w2blk m c t (ix2 k d)) = fun k d => W2t m c (ix2 k d) :=
    funext fun k => funext fun d => w2blk_apply m c t k d
  have e5 : (fun d => b2blk m c t (ix2 (0 : Fin 1) d)) = fun d => B2 m c (ix1 d) := funext fun d => b2blk_apply m c t d
  rw [e1, e2, e3, e4, e5]

/-! ## The accumulators after the last point: the sums over all rows -/

theorem acc6_last (c : Dev nD) : acc6 m c 31 = poolPos (X m c) (Y m c) (W1t m c) (B1 m c) (W2t m c) (B2 m c) := by
  funext j
  obtain ⟨a, b, rfl⟩ : ∃ (a : Fin 64) (b : Fin 256), j = ix2 a b := ⟨j 0, j 1, eq_ix2 j⟩
  unfold acc6 poolPos
  show ∑ t ∈ Finset.range 32, gpos m c t (ix2 a b) = _
  rw [sum_range_tiles (fun t => gpos m c t (ix2 a b)), ← sum_tiles]
  refine Finset.sum_congr rfl fun t _ => ?_
  have ht : t.val < cfg0.N := lt_of_lt_of_eq t.isLt N_0.symm
  unfold gpos
  rw [dif_pos ht]
  refine Finset.sum_congr rfl fun r _ => ?_
  rw [yblk_apply, hid_apply]

theorem acc7_last (c : Dev nD) : acc7 m c 31 = poolNeg (X m c) (Y m c) (W1t m c) (B1 m c) (W2t m c) (B2 m c) := by
  funext j
  obtain ⟨a, b, rfl⟩ : ∃ (a : Fin 64) (b : Fin 256), j = ix2 a b := ⟨j 0, j 1, eq_ix2 j⟩
  unfold acc7 poolNeg
  show ∑ t ∈ Finset.range 32, gneg m c t (ix2 a b) = _
  rw [sum_range_tiles (fun t => gneg m c t (ix2 a b)), ← sum_tiles]
  refine Finset.sum_congr rfl fun t _ => ?_
  have ht : t.val < cfg0.N := lt_of_lt_of_eq t.isLt N_0.symm
  unfold gneg
  rw [dif_pos ht]
  refine Finset.sum_congr rfl fun r _ => ?_
  rw [yblk_apply, hid_apply]

theorem acc8_last (c : Dev nD) (q : Fin 64) : acc8 m c 31 (ix2 (0 : Fin 1) q) = colSum (Y m c) (ix1 q) := by
  unfold acc8 colSum
  show ∑ t ∈ Finset.range 32, gcol m c t (ix2 (0 : Fin 1) q) = _
  rw [sum_range_tiles (fun t => gcol m c t (ix2 (0 : Fin 1) q)), ← sum_tiles]
  refine Finset.sum_congr rfl fun t _ => ?_
  have ht : t.val < cfg0.N := lt_of_lt_of_eq t.isLt N_0.symm
  unfold gcol
  rw [dif_pos ht]
  refine Finset.sum_congr rfl fun r _ => ?_
  rw [yblk_apply]

end Cert.KernelIdeal.Whole

end
-- ==== Proof.KFinal.lean ====
/-
  The parameter rows the idealized kernel's program forms, as a function of the whole argument arrays.

  The region's result arrays are the pooled sums `poolPos`, `poolNeg` and (one row of) the column sums `colSum` of ys;
  the program takes the column sums out of their row and forms 65536 minus them, which at finite ys is the column sums
  of 1 − ys (`Pool.colSumNeg_eq`: the one step that uses the precondition).
-/
import proofs.«123320_j45148696215988_1_alg».proof.Proof.KRun
import proofs.«123320_j45148696215988_1_alg».proof.Proof.KWhole

noncomputable section

open Idealize.ShloMosaic Idealize.ShloMosaic.TcCoe Idealize.SL.Sem Idealize.ShloMosaic.ValueIdx

namespace Cert.KernelIdeal.Fin

open Cert.KernelIdeal Cert.KernelIdeal.Gen Cert.KernelIdeal.Acc Cert.KernelIdeal.Whole Cert.Pool

variable (m : (ℓ : Loc nD τ sig) → Buf (Elt Ideal) ℓ)

/-- The column sums, taken out of their one row. -/
theorem colrow_eq (c : Dev nD) : shapeCast S64 (res8 m c) shapeCasts_S1x64_S64 = colSum (Y m c) := by
  funext j
  obtain ⟨q, rfl⟩ : ∃ q : Fin 64, j = ix1 q := ⟨j 0, eq_ix1 j⟩
  rw [shapeCast_1a_a_apply]
  exact acc8_last m c q

/-- 65536 minus the column sums of finite ys: the column sums of 1 − ys. -/
theorem colneg_eq (c : Dev nD) (hY : ∀ i, ∃ r : ℝ, Y m c i = (r : EReal)) :
    subf (F := Ideal) (broadcastInDim S64 ![] bcast_S_S64 (constant (F := Ideal) S_ .f32 0x47800000#32)) (colSum (Y m c))
      = colSumNeg (Y m c) := by
  funext j
  show Ideal.ofBits .f32 0x47800000#32 - colSum (Y m c) j = _
  rw [ofBits_65536, colSumNeg_eq (Y m c) hY j]

theorem kparams_eq (c : Dev nD) (hY : ∀ i, ∃ r : ℝ, Y m c i = (r : EReal)) :
    kparams m c = Tail.params (F := Ideal) (poolPos (X m c) (Y m c) (W1t m c) (B1 m c) (W2t m c) (B2 m c))
      (poolNeg (X m c) (Y m c) (W1t m c) (B1 m c) (W2t m c) (B2 m c)) (colSum (Y m c)) (colSumNeg (Y m c))
      (m ((c : Thread nD τ).loc main_arg6)) (m ((c : Thread nD τ).loc main_arg7)) (m ((c : Thread nD τ).loc main_arg8)) (m ((c : Thread nD τ).loc main_arg9)) := by
  unfold kparams
  rw [colrow_eq, colneg_eq m c hY]
  show Tail.params (F := Ideal) (acc6 m c 31) (acc7 m c 31) _ _ _ _ _ _ = _
  rw [acc6_last, acc7_last]

end Cert.KernelIdeal.Fin

end
-- ==== Proof.RefValue.lean ====
/-
  The reference, read: its two pooled products, its two column sums, and the shared end of the computation.

  The reference forms the hidden activations H of all 65536 rows at once (two dense layers with a clamp at zero:
  `hidden_apply` reads one entry as `hrow`), then `ysᵀ·H` and `(1 − ys)ᵀ·H` as plain products with the transposed
  ys (`pos_eq`, `neg_eq`: the sums over all rows, `poolPos` and `poolNeg`), and the column sums of ys and of 1 − ys as
  host reductions from zero (`sum_eq`, `sumNeg_eq`). Everything after that is the shared end (`Tail`), applied to these
  four arrays (`outW_eq`, `outB_eq`).
-/
import proofs.«123320_j45148696215988_1_alg».proof.Proof.Gen.ReferenceIdeal.Read
import proofs.«123320_j45148696215988_1_alg».proof.Proof.PoolSums
import proofs.«123320_j45148696215988_1_alg».proof.Proof.Tail

open scoped BigOperators

noncomputable section

open Idealize.ShloMosaic Idealize.ShloMosaic.ValueIdx Idealize.ShloMosaic.TcCoe Idealize.SL.Sem

namespace Cert.ReferenceIdeal.RefValue

open Cert.ReferenceIdeal Cert.ReferenceIdeal.Read Cert.Pool

/-- The two weight matrices transposed, as the reference forms them. -/
abbrev W1t (x2 : (⟨S256x768, .f32⟩ : BufTy).Contents (Elt Ideal)) : (⟨S768x256, .f32⟩ : BufTy).Contents (Elt Ideal) := transpose S768x256 [1, 0] x2 Facts₀.transposes_S256x768_S768x256_1_0
abbrev W2t (x4 : (⟨S256x256, .f32⟩ : BufTy).Contents (Elt Ideal)) : (⟨S256x256, .f32⟩ : BufTy).Contents (Elt Ideal) := transpose S256x256 [1, 0] x4 Facts₀.transposes_S256x256_S256x256_1_0

theorem v0_eq (x2 : (⟨S256x768, .f32⟩ : BufTy).Contents (Elt Ideal)) : val_main_v0 (F := Ideal) x2 = W1t x2 := rfl
theorem v6_eq (x4 : (⟨S256x256, .f32⟩ : BufTy).Contents (Elt Ideal)) : val_main_v6 (F := Ideal) x4 = W2t x4 := rfl

/-! ## The index maps of the operations read, at coordinates -/

theorem l1 (s : Fin 65536) (k : Fin 256) (e : Fin 768) : lidx_main_v1 (ix2 s k) e = ix2 s e :=
  funext fun a => Fin.ext (by match a with | ⟨0, _⟩ => rfl | ⟨1, _⟩ => rfl)
theorem r1 (s : Fin 65536) (k : Fin 256) (e : Fin 768) : ridx_main_v1 (ix2 s k) e = ix2 e k :=
  funext fun a => Fin.ext (by match a with | ⟨0, _⟩ => rfl | ⟨1, _⟩ => rfl)
theorem l7 (s : Fin 65536) (d : Fin 256) (k : Fin 256) : lidx_main_v7 (ix2 s d) k = ix2 s k :=
  funext fun a => Fin.ext (by match a with | ⟨0, _⟩ => rfl | ⟨1, _⟩ => rfl)
theorem r7 (s : Fin 65536) (d : Fin 256) (k : Fin 256) : ridx_main_v7 (ix2 s d) k = ix2 k d :=
  funext fun a => Fin.ext (by match a with | ⟨0, _⟩ => rfl | ⟨1, _⟩ => rfl)
theorem i3 (s : Fin 65536) (k : Fin 256) : idx_main_v2 (idx_main_v3 (ix2 s k)) = ix1 k :=
  funext fun a => Fin.ext (by match a with | ⟨0, _⟩ => rfl)
theorem i9 (s : Fin 65536) (d : Fin 256) : idx_main_v8 (idx_main_v9 (ix2 s d)) = ix1 d :=
  funext fun a => Fin.ext (by match a with | ⟨0, _⟩ => rfl)
theorem l21 (c : Fin 64) (d : Fin 256) (s : Fin 65536) : idx_main_v20 (lidx_main_v21 (ix2 c d) s) = ix2 s c :=
  funext fun a => Fin.ext (by match a with | ⟨0, _⟩ => rfl | ⟨1, _⟩ => rfl)
theorem r21 (c : Fin 64) (d : Fin 256) (s : Fin 65536) : ridx_main_v21 (ix2 c d) s = ix2 s d :=
  funext fun a => Fin.ext (by match a with | ⟨0, _⟩ => rfl | ⟨1, _⟩ => rfl)
theorem l26 (c : Fin 64) (d : Fin 256) (s : Fin 65536) : idx_main_v25 (lidx_main_v26 (ix2 c d) s) = ix2 s c :=
  funext fun a => Fin.ext (by match a with | ⟨0, _⟩ => rfl | ⟨1, _⟩ => rfl)
theorem r26 (c : Fin 64) (d : Fin 256) (s : Fin 65536) : ridx_main_v26 (ix2 c d) s = ix2 s d :=
  funext fun a => Fin.ext (by match a with | ⟨0, _⟩ => rfl | ⟨1, _⟩ => rfl)
theorem i14 (c : Fin 64) (s : Fin 65536) : idx_main_v14 (ix1 c) s = ix2 s c :=
  funext fun a => Fin.ext (by match a with | ⟨0, _⟩ => rfl | ⟨1, _⟩ => rfl)
theorem i17 (c : Fin 64) (s : Fin 65536) : idx_main_v17 (ix1 c) s = ix2 s c :=
  funext fun a => Fin.ext (by match a with | ⟨0, _⟩ => rfl | ⟨1, _⟩ => rfl)

/-! ## The hidden activations -/

/-- The first layer with its clamp, at row `s` and hidden unit `k`. -/
theorem layer1_apply (x0 : (⟨S65536x768, .f32⟩ : BufTy).Contents (Elt Ideal)) (x2 : (⟨S256x768, .f32⟩ : BufTy).Contents (Elt Ideal)) (x3 : (⟨S256, .f32⟩ : BufTy).Contents (Elt Ideal)) (s : Fin 65536) (k : Fin 256) :
    val_main_v5 (F := Ideal) x0 x2 x3 (ix2 s k)
      = max ((∑ e : Fin 768, x0 (ix2 s e) * W1t x2 (ix2 e k)) + x3 (ix1 k)) 0 := by
  rw [val_main_v5_apply, val_main_v4_apply, val_main_v1_apply, val_main_v3_apply, val_main_v2_apply, val_main_call0_v0_apply,
    val_main_call0_cst_apply, i3, v0_eq]
  simp only [l1, r1, Ideal.maximumf_def, Ideal.addf_def, Ideal.ofBits_def, ofBits_zero]

/-- The hidden activations at row `s` and hidden unit `d`. -/
theorem hidden_apply (x0 : (⟨S65536x768, .f32⟩ : BufTy).Contents (Elt Ideal)) (x2 : (⟨S256x768, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (s : Fin 65536) (d : Fin 256) :
    val_main_v11 (F := Ideal) x0 x2 x3 x4 x5 (ix2 s d) = hrow x0 (W1t x2) x3 (W2t x4) x5 s d := by
  unfold hrow mlp
  rw [val_main_v11_apply, val_main_v10_apply, val_main_v7_apply, val_main_v9_apply, val_main_v8_apply, val_main_call1_v0_apply,
    val_main_call1_cst_apply, i9, v6_eq]
  simp only [l7, r7, layer1_apply, Ideal.maximumf_def, Ideal.addf_def, Ideal.ofBits_def, ofBits_zero]

/-! ## The pooled products and the column sums -/

theorem pos_eq (x0 : (⟨S65536x768, .f32⟩ : BufTy).Contents (Elt Ideal)) (x1 : (⟨S65536x64, .f32⟩ : BufTy).Contents (Elt Ideal)) (x2 : (⟨S256x768, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) :
    val_main_v21 (F := Ideal) x0 x1 x2 x3 x4 x5 = poolPos x0 x1 (W1t x2) x3 (W2t x4) x5 := by
  funext j
  obtain ⟨c, d, rfl⟩ : ∃ (c : Fin 64) (d : Fin 256), j = ix2 c d := ⟨j 0, j 1, eq_ix2 j⟩
  rw [val_main_v21_apply]
  unfold poolPos
  refine Finset.sum_congr rfl fun s _ => ?_
  rw [val_main_v20_apply, l21, r21, hidden_apply]

theorem neg_eq (x0 : (⟨S65536x768, .f32⟩ : BufTy).Contents (Elt Ideal)) (x1 : (⟨S65536x64, .f32⟩ : BufTy).Contents (Elt Ideal)) (x2 : (⟨S256x768, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) :
    val_main_v26 (F := Ideal) x0 x1 x2 x3 x4 x5 = poolNeg x0 x1 (W1t x2) x3 (W2t x4) x5 := by
  funext j
  obtain ⟨c, d, rfl⟩ : ∃ (c : Fin 64) (d : Fin 256), j = ix2 c d := ⟨j 0, j 1, eq_ix2 j⟩
  rw [val_main_v26_apply]
  unfold poolNeg
  refine Finset.sum_congr rfl fun s _ => ?_
  rw [val_main_v25_apply, l26, r26, hidden_apply, val_main_v13_apply, val_main_v12_apply, val_main_cst_apply]
  simp only [Ideal.subf_def, Ideal.ofBits_def, ofBits_one]

theorem sum_eq (x1 : (⟨S65536x64, .f32⟩ : BufTy).Contents (Elt Ideal)) : val_main_v14 (F := Ideal) x1 = colSum x1 := by
  funext j
  obtain ⟨c, rfl⟩ : ∃ c : Fin 64, j = ix1 c := ⟨j 0, eq_ix1 j⟩
  rw [val_main_v14_apply, val_main_cst_0_apply]
  unfold colSum
  simp only [i14, Ideal.ofBits_def, ofBits_zero, zero_add]

theorem sumNeg_eq (x1 : (⟨S65536x64, .f32⟩ : BufTy).Contents (Elt Ideal)) : val_main_v17 (F := Ideal) x1 = colSumNeg x1 := by
  funext j
  obtain ⟨c, rfl⟩ : ∃ c : Fin 64, j = ix1 c := ⟨j 0, eq_ix1 j⟩
  rw [val_main_v17_apply, val_main_cst_2_apply]
  unfold colSumNeg
  simp only [i17, val_main_v13_apply, val_main_v12_apply, val_main_cst_apply, Ideal.subf_def, Ideal.ofBits_def, ofBits_zero, ofBits_one, zero_add]

/-! ## The shared end -/

/-- The parameter rows the reference forms, over its own four arrays. -/
theorem params_eq (x0 : (⟨S65536x768, .f32⟩ : BufTy).Contents (Elt Ideal)) (x1 : (⟨S65536x64, .f32⟩ : BufTy).Contents (Elt Ideal)) (x2 : (⟨S256x768, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x512, .f32⟩ : BufTy).Contents (Elt Ideal)) (x7 : (⟨S256, .f32⟩ : BufTy).Contents (Elt Ideal)) (x8 : (⟨S1537x256, .f32⟩ : BufTy).Contents (Elt Ideal)) (x9 : (⟨S1537, .f32⟩ : BufTy).Contents (Elt Ideal)) :
    val_main_v41 (F := Ideal) x0 x1 x2 x3 x4 x5 x6 x7 x8 x9
      = Cert.KernelIdeal.Tail.params (F := Ideal) (val_main_v21 (F := Ideal) x0 x1 x2 x3 x4 x5) (val_main_v26 (F := Ideal) x0 x1 x2 x3 x4 x5)
          (val_main_v14 (F := Ideal) x1) (val_main_v17 (F := Ideal) x1) x6 x7 x8 x9 := by
  unfold val_main_v41 val_main_v40 val_main_v39 val_main_v38 val_main_v37 val_main_v36 val_main_call2_v0 val_main_call2_cst
    val_main_v35 val_main_v34 val_main_v33 val_main_v32 val_main_v31 val_main_v30 val_main_v29 val_main_v28 val_main_v27
    val_main_v24 val_main_v23 val_main_v22 val_main_v19 val_main_v18 val_main_cst_3 val_main_v16 val_main_v15 val_main_cst_1
    Cert.KernelIdeal.Tail.params
  rfl

theorem outW_eq (x0 : (⟨S65536x768, .f32⟩ : BufTy).Contents (Elt Ideal)) (x1 : (⟨S65536x64, .f32⟩ : BufTy).Contents (Elt Ideal)) (x2 : (⟨S256x768, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x512, .f32⟩ : BufTy).Contents (Elt Ideal)) (x7 : (⟨S256, .f32⟩ : BufTy).Contents (Elt Ideal)) (x8 : (⟨S1537x256, .f32⟩ : BufTy).Contents (Elt Ideal)) (x9 : (⟨S1537, .f32⟩ : BufTy).Contents (Elt Ideal)) (x10 : (⟨S768, .f32⟩ : BufTy).Contents (Elt Ideal)) :
    val_main_v55 (F := Ideal) x0 x1 x2 x3 x4 x5 x6 x7 x8 x9 x10
      = Cert.KernelIdeal.Tail.outW (F := Ideal) (val_main_v41 (F := Ideal) x0 x1 x2 x3 x4 x5 x6 x7 x8 x9) x10 := by
  unfold val_main_v55 val_main_v54 val_main_v53 val_main_v52 val_main_v51 val_main_v50 val_main_cst_5 val_main_v49 val_main_v48
    val_main_cst_4 val_main_v47 val_main_v46 val_main_v45 val_main_v42 Cert.KernelIdeal.Tail.outW
  rfl

theorem outB_eq (x0 : (⟨S65536x768, .f32⟩ : BufTy).Contents (Elt Ideal)) (x1 : (⟨S65536x64, .f32⟩ : BufTy).Contents (Elt Ideal)) (x2 : (⟨S256x768, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x512, .f32⟩ : BufTy).Contents (Elt Ideal)) (x7 : (⟨S256, .f32⟩ : BufTy).Contents (Elt Ideal)) (x8 : (⟨S1537x256, .f32⟩ : BufTy).Contents (Elt Ideal)) (x9 : (⟨S1537, .f32⟩ : BufTy).Contents (Elt Ideal)) (x11 : (⟨S1, .f32⟩ : BufTy).Contents (Elt Ideal)) :
    val_main_v58 (F := Ideal) x0 x1 x2 x3 x4 x5 x6 x7 x8 x9 x11
      = Cert.KernelIdeal.Tail.outB (F := Ideal) (val_main_v41 (F := Ideal) x0 x1 x2 x3 x4 x5 x6 x7 x8 x9) x11 := by
  unfold val_main_v58 val_main_v57 val_main_v56 val_main_v44 val_main_v43 Cert.KernelIdeal.Tail.outB
  rfl

/-! ## The reference's two results, over the whole argument arrays -/

/-- The parameter rows the reference forms. -/
def rparams (m : (ℓ : Loc nD τ sig) → Buf (Elt Ideal) ℓ) (c : Dev nD) : FVec Ideal Cert.KernelIdeal.S64x1537 .f32 :=
  Cert.KernelIdeal.Tail.params (F := Ideal)
    (poolPos (m ((c.tc : Thread nD τ).loc main_arg0)) (m ((c.tc : Thread nD τ).loc main_arg1)) (W1t (m ((c.tc : Thread nD τ).loc main_arg2))) (m ((c.tc : Thread nD τ).loc main_arg3)) (W2t (m ((c.tc : Thread nD τ).loc main_arg4))) (m ((c.tc : Thread nD τ).loc main_arg5)))
    (poolNeg (m ((c.tc : Thread nD τ).loc main_arg0)) (m ((c.tc : Thread nD τ).loc main_arg1)) (W1t (m ((c.tc : Thread nD τ).loc main_arg2))) (m ((c.tc : Thread nD τ).loc main_arg3)) (W2t (m ((c.tc : Thread nD τ).loc main_arg4))) (m ((c.tc : Thread nD τ).loc main_arg5)))
    (colSum (m ((c.tc : Thread nD τ).loc main_arg1))) (colSumNeg (m ((c.tc : Thread nD τ).loc main_arg1))) (m ((c.tc : Thread nD τ).loc main_arg6)) (m ((c.tc : Thread nD τ).loc main_arg7)) (m ((c.tc : Thread nD τ).loc main_arg8)) (m ((c.tc : Thread nD τ).loc main_arg9))

theorem res55_eq (m : (ℓ : Loc nD τ sig) → Buf (Elt Ideal) ℓ) (c : Dev nD) :
    Cert.ReferenceIdeal.Value.res_main_v55 m c = Cert.KernelIdeal.Tail.outW (F := Ideal) (rparams m c) (m ((c.tc : Thread nD τ).loc main_arg10)) := by
  rw [val_main_v55_eq, outW_eq, params_eq, pos_eq, neg_eq, sum_eq, sumNeg_eq]
  rfl

theorem res58_eq (m : (ℓ : Loc nD τ sig) → Buf (Elt Ideal) ℓ) (c : Dev nD) :
    Cert.ReferenceIdeal.Value.res_main_v58 m c = Cert.KernelIdeal.Tail.outB (F := Ideal) (rparams m c) (m ((c.tc : Thread nD τ).loc main_arg11)) := by
  rw [val_main_v58_eq, outB_eq, params_eq, pos_eq, neg_eq, sum_eq, sumNeg_eq]
  rfl

end Cert.ReferenceIdeal.RefValue

end
-- ==== Proof.Finite.lean ====
/-
  What the precondition says of ys: every entry is a real number.

  The precondition is the conjunction, over the twelve argument arrays, of "every entry's absolute value is below +∞".
  Its second conjunct speaks of ys. An extended real whose absolute value is below +∞ is neither +∞ nor −∞, so it is
  the coercion of a real.
-/
import proofs.«123320_j45148696215988_1_alg».proof.Pre_finite_inputs
import proofs.«123320_j45148696215988_1_alg».proof.Proof.Gen.Pre_finite_inputs
import Idealize.ShloMosaic.Lib.ReduceAll
import Idealize.ShloMosaic.Lib.ValueIdx
import Idealize.ShloMosaic.PureOps.Ideal

noncomputable section

open Idealize.ShloMosaic

namespace Cert.Finite

open Cert.Pre_finite_inputs

instance : Subsingleton S_.Idx := ⟨fun a b => funext fun d => d.elim0⟩

/-- The f32 pattern of +∞ denotes the top of the extended reals. -/
theorem ofBits_inf : Ideal.ofBits .f32 0x7F800000#32 = ⊤ := by
  simp [Ideal.ofBits, Ideal.ieee]

/-- An extended real whose absolute value compares below +∞ is a real. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | top => simp [Ideal.cmp] at h
  | coe r => exact ⟨r, rfl⟩

/-- Under the precondition every entry of ys is a real. -/
theorem ys_real (x0 : FVec Ideal S65536x768 .f32) (x1 : FVec Ideal S65536x64 .f32) (x2 : FVec Ideal S256x768 .f32)
    (x3 : FVec Ideal S256 .f32) (x4 : FVec Ideal S256x256 .f32) (x5 : FVec Ideal S256 .f32) (x6 : FVec Ideal S256x512 .f32)
    (x7 : FVec Ideal S256 .f32) (x8 : FVec Ideal S1537x256 .f32) (x9 : FVec Ideal S1537 .f32) (x10 : FVec Ideal S768 .f32)
    (x11 : FVec Ideal S1 .f32)
    (h : fn (F := Ideal) x0 x1 x2 x3 x4 x5 x6 x7 x8 x9 x10 x11 = fun _ => 1#1) (i : S65536x64.Idx) :
    ∃ r : ℝ, x1 i = (r : EReal) := by
  have h0 := congrFun h ValueIdx.ix0
  simp only [fn, fn_part1, fn_part2, fn_part3, andi, IntOp.andi_eq_one] at h0
  have h7 := h0.1.1.1.1.1.1.1.1.1.1.2
  exact real_of_abs_lt (x1 i) (Host.reduce_andi_all _ _ _ _ _ h7 i)

end Cert.Finite

end
-- ==== Proof.lean ====
/-
  The certificate of the pooled hypernetwork head: a Pallas kernel that accumulates, over 32 blocks of 2048 rows, the
  products ysᵀ·H and (1 − ys)ᵀ·H of the hidden activations H = relu(relu(Xs·W1ᵀ + b1)·W2ᵀ + b2) and the column sums of
  ys, followed by the small hypernetwork head in plain operations — against the reference that forms H for all 65536
  rows at once and pools with two whole matrix products.

  At the ideal values the two programs compute the same function of finite inputs:
    * a change of float format is the identity, so the kernel's bf16 operands are the reference's f32 ones;
    * a sum over all rows is the sum over the blocks of the sums over each block's rows (addition on the extended reals
      is commutative and associative), so the accumulated block products are the whole products (`KWhole`, `KAcc`);
    * the kernel divides the second pooled product by max(65536 − Σ ys, ε), the reference by max(Σ (1 − ys), ε): the two
      sums agree when every entry of ys is a real number, which is what the precondition says (`Finite`, `KFinal`);
    * from the pooled products and the column sums on, both programs apply the same operations (`Tail`).

  The three frames: the two kernels' are the generated frame certificates; the reference's is its generated run with
  the results dropped. The idealization rewrote nothing, so `preserves` is trivial.
-/
import proofs.«123320_j45148696215988_1_alg».proof.Defs
import proofs.«123320_j45148696215988_1_alg».proof.Proof.Gen.Kernel
import proofs.«123320_j45148696215988_1_alg».proof.Proof.Gen.Kernel.Skeleton
import proofs.«123320_j45148696215988_1_alg».proof.Proof.Gen.Kernel.Launch
import proofs.«123320_j45148696215988_1_alg».proof.Proof.Gen.Kernel.Points
import proofs.«123320_j45148696215988_1_alg».proof.Proof.Gen.Kernel.Frame
import proofs.«123320_j45148696215988_1_alg».proof.Proof.Gen.KernelIdeal
import proofs.«123320_j45148696215988_1_alg».proof.Proof.Gen.KernelIdeal.Skeleton
import proofs.«123320_j45148696215988_1_alg».proof.Proof.Gen.KernelIdeal.Launch
import proofs.«123320_j45148696215988_1_alg».proof.Proof.Gen.KernelIdeal.Points
import proofs.«123320_j45148696215988_1_alg».proof.Proof.Gen.KernelIdeal.Frame
import proofs.«123320_j45148696215988_1_alg».proof.Proof.Gen.ReferenceIdeal
import proofs.«123320_j45148696215988_1_alg».proof.Proof.Gen.Pre_finite_inputs
import proofs.«123320_j45148696215988_1_alg».proof.Proof.Gen.ReferenceIdeal.Run
import proofs.«123320_j45148696215988_1_alg».proof.Proof.Gen.ReferenceIdeal.Read
import proofs.«123320_j45148696215988_1_alg».proof.Proof.KFinal
import proofs.«123320_j45148696215988_1_alg».proof.Proof.RefValue
import proofs.«123320_j45148696215988_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end at `outW` and `outB` of parameter rows formed from the same pooled sums of the same arguments. -/
theorem algebraic : Cert.algebraic_KernelIdeal_ReferenceIdeal := by
  intro m ρ m' ρ' hpre hagree
  refine ⟨fun c => Cert.KernelIdeal.Tail.outW (F := Ideal) (Cert.KernelIdeal.Fin.kparams m c) (m ((c.tc : Thread Cert.KernelIdeal.nD Cert.KernelIdeal.τ).loc Cert.KernelIdeal.main_arg10)),
    fun c => Cert.KernelIdeal.Tail.outB (F := Ideal) (Cert.KernelIdeal.Fin.kparams m c) (m ((c.tc : Thread Cert.KernelIdeal.nD Cert.KernelIdeal.τ).loc Cert.KernelIdeal.main_arg11)),
    Cert.KernelIdeal.Fin.run m ρ, ?_⟩
  refine (θ_run Cert.ReferenceIdeal.defs _ _).mono (fun _ h c => ?_) (Cert.ReferenceIdeal.Value.run (F := Ideal) m' ρ')
  have hY : ∀ i, ∃ r : ℝ, Cert.KernelIdeal.Whole.Y m c i = (r : EReal) := fun i =>
    Cert.Finite.ys_real _ _ _ _ _ _ _ _ _ _ _ _ (hpre c) i
  obtain ⟨a0, a1, a2, a3, a4, a5, a6, a7, a8, a9, a10, a11⟩ := hagree c
  have hp : Cert.ReferenceIdeal.RefValue.rparams m' c = Cert.KernelIdeal.Fin.kparams m c := by
    rw [Cert.KernelIdeal.Fin.kparams_eq m c hY]
    unfold Cert.ReferenceIdeal.RefValue.rparams
    rw [a0, a1, a2, a3, a4, a5, a6, a7, a8, a9]
  refine ⟨(h c).1.trans ?_, (h c).2.1.trans ?_, (h c).2.2⟩
  · rw [Cert.ReferenceIdeal.RefValue.res55_eq, hp, a10]
  · rw [Cert.ReferenceIdeal.RefValue.res58_eq, hp, a11]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
